-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S8192x8192 : Shape := ⟨2, ![8192, 8192]⟩
abbrev S8192 : Shape := ⟨1, ![8192]⟩
abbrev S1 : Shape := ⟨1, ![1]⟩
abbrev S8192x64 : Shape := ⟨2, ![8192, 64]⟩
abbrev S64 : Shape := ⟨1, ![64]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  reducesTo_S1_S_d0 : S1.ReducesTo [0] S_
  bcast_S_S8192x64 : S_.BroadcastsInDim S8192x64 (![] : Fin 0 → Fin S8192x64.rank)
  reducesTo_S8192x64_S_d0_1 : S8192x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg6 : IVec S8192 32) (main_v47 : IVec S_ 1) (main_v49 : IVec S8192 1) (main_c_19 : IVec S_ 1) : IVec S_ 1 :=
  let main_v50 : IVec S_ 1 := (fun x v => Host.reduce IntOp.andi x v reducesTo_S8192_S_d0 h_S_) main_v49 main_c_19
  let main_v51 : IVec S_ 1 := andi main_v47 main_v50
  let main_c_20 : IVec S_ 32 := constantI S_ 32 0#32
  let main_v52 : IVec S8192 32 := broadcastInDim S8192 ![] bcast_S_S8192 main_c_20
  let main_v53 : IVec S8192 1 := cmpi .sge main_arg6 main_v52
  let main_c_21 : IVec S_ 1 := constantI S_ 1 1#1
  let main_v54 : IVec S_ 1 := (fun x v => Host.reduce IntOp.andi x v reducesTo_S8192_S_d0 h_S_) main_v53 main_c_21
  let main_v55 : IVec S_ 1 := andi main_v51 main_v54
  let main_c_22 : IVec S_ 32 := constantI S_ 32 8192#32
  let main_v56 : IVec S8192 32 := broadcastInDim S8192 ![] bcast_S_S8192 main_c_22
  let main_v57 : IVec S8192 1 := cmpi .slt main_arg6 main_v56
  let main_c_23 : IVec S_ 1 := constantI S_ 1 1#1
  let main_v58 : IVec S_ 1 := (fun x v => Host.reduce IntOp.andi x v reducesTo_S8192_S_d0 h_S_) main_v57 main_c_23
  let main_v59 : IVec S_ 1 := andi main_v55 main_v58
  main_v59

def fn_part2 {F : FTy → Type} [FloatOps F] (main_arg5 : IVec S8192 32) (main_arg6 : IVec S8192 32) (main_arg10 : FVec F S8192x64 .f32) (main_arg11 : FVec F S8192 .f32) (main_v33 : IVec S_ 1) : IVec S_ 1 :=
  let main_v34 : FVec F S8192x64 .f32 := Host.absf main_arg10
  let main_cst_12 : FVec F S_ .f32 := constant S_ .f32 0x7F800000#32
  let main_v35 : FVec F S8192x64 .f32 := broadcastInDim S8192x64 ![] bcast_S_S8192x64 main_cst_12
  let main_v36 : IVec S8192x64 1 := cmpf .olt main_v34 main_v35
  let main_c_13 : IVec S_ 1 := constantI S_ 1 1#1
  let main_v37 : IVec S_ 1 := (fun x v => Host.reduce IntOp.andi x v reducesTo_S8192x64_S_d0_1 h_S_) main_v36 main_c_13
  let main_v38 : IVec S_ 1 := andi main_v33 main_v37
  let main_v39 : FVec F S8192 .f32 := Host.absf main_arg11
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_c_16 : IVec S_ 32 := constantI S_ 32 0#32
  let main_v44 : IVec S8192 32 := broadcastInDim S8192 ![] bcast_S_S8192 main_c_16
  let main_v45 : IVec S8192 1 := cmpi .sge main_arg5 main_v44
  let main_c_17 : IVec S_ 1 := constantI S_ 1 1#1
  let main_v46 : IVec S_ 1 := (fun x v => Host.reduce IntOp.andi x v reducesTo_S8192_S_d0 h_S_) main_v45 main_c_17
  let main_v47 : IVec S_ 1 := andi main_v43 main_v46
  let main_c_18 : IVec S_ 32 := constantI S_ 32 8192#32
  let main_v48 : IVec S8192 32 := broadcastInDim S8192 ![] bcast_S_S8192 main_c_18
  let main_v49 : IVec S8192 1 := cmpi .slt main_arg5 main_v48
  let main_c_19 : IVec S_ 1 := constantI S_ 1 1#1
  fn_part3 (F := F) main_arg6 main_v47 main_v49 main_c_19

def fn_part1 {F : FTy → Type} [FloatOps F] (main_arg5 : IVec S8192 32) (main_arg6 : IVec S8192 32) (main_arg7 : FVec F S8192 .f32) (main_arg8 : FVec F S8192x64 .f32) (main_arg9 : FVec F S64 .f32) (main_arg10 : FVec F S8192x64 .f32) (main_arg11 : FVec F S8192 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S8192 .f32 := Host.absf main_arg7
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x64 .f32 := Host.absf main_arg8
  let main_cst_8 : FVec F S_ .f32 := constant S_ .f32 0x7F800000#32
  let main_v25 : FVec F S8192x64 .f32 := broadcastInDim S8192x64 ![] bcast_S_S8192x64 main_cst_8
  let main_v26 : IVec S8192x64 1 := cmpf .olt main_v24 main_v25
  let main_c_9 : IVec S_ 1 := constantI S_ 1 1#1
  let main_v27 : IVec S_ 1 := (fun x v => Host.reduce IntOp.andi x v reducesTo_S8192x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg5 main_arg6 main_arg10 main_arg11 main_v33

def fn {F : FTy → Type} [FloatOps F] (main_arg0 : FVec F S512x8192 .f32) (main_arg1 : IVec S8192x8192 32) (main_arg2 : FVec F S8192 .f32) (main_arg3 : FVec F S8192 .f32) (main_arg4 : FVec F S1 .f32) (main_arg5 : IVec S8192 32) (main_arg6 : IVec S8192 32) (main_arg7 : FVec F S8192 .f32) (main_arg8 : FVec F S8192x64 .f32) (main_arg9 : FVec F S64 .f32) (main_arg10 : FVec F S8192x64 .f32) (main_arg11 : FVec F S8192 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_arg11 main_v13 main_v16
-- ==== Kernel.lean ====
abbrev S512x8192 : Shape := ⟨2, ![512, 8192]⟩
abbrev S8192x8192 : Shape := ⟨2, ![8192, 8192]⟩
abbrev S8192 : Shape := ⟨1, ![8192]⟩
abbrev S1 : Shape := ⟨1, ![1]⟩
abbrev S8192x64 : Shape := ⟨2, ![8192, 64]⟩
abbrev S64 : Shape := ⟨1, ![64]⟩
abbrev S1x8192 : Shape := ⟨2, ![1, 8192]⟩
abbrev S_ : Shape := ⟨0, ![]⟩
abbrev S512x64 : Shape := ⟨2, ![512, 64]⟩
abbrev S1x64 : Shape := ⟨2, ![1, 64]⟩
abbrev S8192x512 : Shape := ⟨2, ![8192, 512]⟩
abbrev S8192x1 : Shape := ⟨2, ![8192, 1]⟩
abbrev S1x1 : Shape := ⟨2, ![1, 1]⟩
abbrev S256x8192 : Shape := ⟨2, ![256, 8192]⟩
abbrev S1x256 : Shape := ⟨2, ![1, 256]⟩
abbrev S256x64 : Shape := ⟨2, ![256, 64]⟩
abbrev S256x512 : Shape := ⟨2, ![256, 512]⟩
abbrev S512x256 : Shape := ⟨2, ![512, 256]⟩
abbrev S8192x256 : Shape := ⟨2, ![8192, 256]⟩
abbrev S64x256 : Shape := ⟨2, ![64, 256]⟩

abbrev nBuf : Space → Nat
  | .hbm => 70
  | .vmem => 14
  | .smem => 0
  | _ => 0

abbrev bufTy : (tb : Table) → Fin (tcTables nBuf tb) → BufTy
  | .hbm, ⟨0, _⟩ => ⟨S512x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S1, .f32⟩
  | .hbm, ⟨5, _⟩ => ⟨S8192, .i32⟩
  | .hbm, ⟨6, _⟩ => ⟨S8192, .i32⟩
  | .hbm, ⟨7, _⟩ => ⟨S8192, .f32⟩
  | .hbm, ⟨8, _⟩ => ⟨S8192x64, .f32⟩
  | .hbm, ⟨9, _⟩ => ⟨S64, .f32⟩
  | .hbm, ⟨10, _⟩ => ⟨S8192x64, .f32⟩
  | .hbm, ⟨11, _⟩ => ⟨S8192, .f32⟩
  | .hbm, ⟨12, _⟩ => ⟨S1x8192, .f32⟩
  | .hbm, ⟨13, _⟩ => ⟨S512x8192, .f32⟩
  | .hbm, ⟨14, _⟩ => ⟨S512x8192, .f32⟩
  | .hbm, ⟨15, _⟩ => ⟨S_, .f32⟩
  | .hbm, ⟨16, _⟩ => ⟨S512x8192, .f32⟩
  | .hbm, ⟨17, _⟩ => ⟨S512x8192, .f32⟩
  | .hbm, ⟨18, _⟩ => ⟨S512x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512x8192, .f32⟩
  | .hbm, ⟨23, _⟩ => ⟨S512x8192, .f32⟩
  | .hbm, ⟨24, _⟩ => ⟨S_, .f32⟩
  | .hbm, ⟨25, _⟩ => ⟨S512x8192, .f32⟩
  | .hbm, ⟨26, _⟩ => ⟨S512x8192, .f32⟩
  | .hbm, ⟨27, _⟩ => ⟨S512x8192, .f32⟩
  | .hbm, ⟨28, _⟩ => ⟨S512x8192, .f32⟩
  | .hbm, ⟨29, _⟩ => ⟨S512x64, .f32⟩
  | .hbm, ⟨30, _⟩ => ⟨S1x64, .f32⟩
  | .hbm, ⟨31, _⟩ => ⟨S512x64, .f32⟩
  | .hbm, ⟨32, _⟩ => ⟨S512x64, .f32⟩
  | .hbm, ⟨33, _⟩ => ⟨S512x64, .bf16⟩
  | .hbm, ⟨34, _⟩ => ⟨S8192x64, .bf16⟩
  | .hbm, ⟨35, _⟩ => ⟨S8192x512, .f32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S1, .i32⟩
  | .hbm, ⟨45, _⟩ => ⟨S_, .i32⟩
  | .hbm, ⟨46, _⟩ => ⟨S8192x1, .i32⟩
  | .hbm, ⟨47, _⟩ => ⟨S8192x1, .i1⟩
  | .hbm, ⟨48, _⟩ => ⟨S1x1, .i32⟩
  | .hbm, ⟨49, _⟩ => ⟨S8192x1, .i32⟩
  | .hbm, ⟨50, _⟩ => ⟨S8192x1, .i1⟩
  | .hbm, ⟨51, _⟩ => ⟨S8192x1, .i1⟩
  | .hbm, ⟨52, _⟩ => ⟨S_, .i1⟩
  | .hbm, ⟨53, _⟩ => ⟨S8192, .i1⟩
  | .hbm, ⟨54, _⟩ => ⟨S8192x512, .f32⟩
  | .hbm, ⟨55, _⟩ => ⟨S8192x512, .i1⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S8192x1, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S8192x512, .f32⟩
  | .hbm, ⟨64, _⟩ => ⟨S8192x1, .i32⟩
  | .hbm, ⟨65, _⟩ => ⟨S8192x512, .f32⟩
  | .hbm, ⟨66, _⟩ => ⟨S512x8192, .bf16⟩
  | .hbm, ⟨67, _⟩ => ⟨S1x8192, .f32⟩
  | .hbm, ⟨68, _⟩ => ⟨S1x8192, .f32⟩
  | .hbm, ⟨69, _⟩ => ⟨S512x8192, .f32⟩
  | .local _ .vmem, ⟨0, _⟩ => ⟨S256x8192, .i32⟩
  | .local _ .vmem, ⟨1, _⟩ => ⟨S256x8192, .i32⟩
  | .local _ .vmem, ⟨2, _⟩ => ⟨S1x256, .f32⟩
  | .local _ .vmem, ⟨3, _⟩ => ⟨S1x256, .f32⟩
  | .local _ .vmem, ⟨4, _⟩ => ⟨S512x8192, .bf16⟩
  | .local _ .vmem, ⟨5, _⟩ => ⟨S512x64, .bf16⟩
  | .local _ .vmem, ⟨6, _⟩ => ⟨S256x64, .bf16⟩
  | .local _ .vmem, ⟨7, _⟩ => ⟨S256x64, .bf16⟩
  | .local _ .vmem, ⟨8, _⟩ => ⟨S256x512, .f32⟩
  | .local _ .vmem, ⟨9, _⟩ => ⟨S256x512, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_1 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  shapeCasts_S1_S_ : S1.ShapeCasts S_
  bcast_S_S512x8192 : S_.BroadcastsInDim S512x8192 (![] : Fin 0 → Fin S512x8192.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bitsLt_bf16_f32 : FTy.bits .bf16 < FTy.bits .f32
  transposes_S512x8192_S8192x512_1_0 : S512x8192.Transposes [1, 0] S8192x512
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x512_0 : S8192.BroadcastsInDim S8192x512 (![0] : Fin 1 → Fin S8192x512.rank)
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  transposes_S256x8192_p1_0_S8192x256 : S256x8192.Transposes [1, 0] S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S256x64_p1_0_S64x256 : S256x64.Transposes [1, 0] S64x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  inb_S512x256_S512x256_0_0 : ∀ a, (![0, 0] : Fin 2 → Nat) a + S512x256.size a ≤ S512x256.size a
  h_S512x256 : 0 < S512x256.numel
  dot_S512x8192_S8192x64_S512x64_1_0_0_1_n_n_wf : DotDims.WF S512x8192 S8192x64 S512x64 [1] [0] [0] [1] [] []
  gather_S8192x512_S8192x1_S8192x512_1_0_n_n_0_1_1512_wf : GatherDims.WF S8192x512 S8192x1 S8192x512 [1] [0] [] [0] [] 1 ![1, 512]
  scatter_S8192x512_S8192x1_S8192x512_1_0_0_1_wf : ScatterDims.WF S8192x512 S8192x1 S8192x512 [1] [0] [0] 1
  dot_S512x8192_S8192x256_S512x256_1_0_0_1_n_n_wf : DotDims.WF S512x8192 S8192x256 S512x256 [1] [0] [0] [1] [] []
  dot_S512x64_S64x256_S512x256_1_0_0_1_n_n_wf : DotDims.WF S512x64 S64x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .i32 = 32 ∨ (Rect.block (s := S8192x8192) S256x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x8192.size a
  hwx0_1 : ∀ i : grid0.Coords, EltTy.bits .f32 = 32 ∨ (Rect.block (s := S1x8192) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S512x8192.size a
  hwx0_2 : ∀ i : grid0.Coords, EltTy.bits .bf16 = 32 ∨ (Rect.block (s := S512x8192) S512x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .bf16 = 32 ∨ (Rect.block (s := S512x64) S512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S8192x64.size a
  hwx0_4 : ∀ i : grid0.Coords, EltTy.bits .bf16 = 32 ∨ (Rect.block (s := S8192x64) S256x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S8192x512.size a
  hwx0_5 : ∀ i : grid0.Coords, EltTy.bits .f32 = 32 ∨ (Rect.block (s := S8192x512) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x8192.size a
  hwx0_6 : ∀ i : grid0.Coords, EltTy.bits .f32 = 32 ∨ (Rect.block (s := S1x8192) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x8192.size a
  hwx0_7 : ∀ i : grid0.Coords, EltTy.bits .f32 = 32 ∨ (Rect.block (s := S512x8192) S512x256.size (cc0_transform_7 i) (hinb0_7 i)).WholeWords (EltTy.packing .f32)

variable [Facts₀]

def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf
def scatter_S8192x512_S8192x1_S8192x512_1_0_0_1 : ScatterDims S8192x512 S8192x1 S8192x512 where
  updateWindowDims := [1]
  insertedWindowDims := [0]
  scatterDimsToOperandDims := [0]
  indexVectorDim := 1
  wf := scatter_S8192x512_S8192x1_S8192x512_1_0_0_1_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x8192 : Shape := ⟨2, ![512, 8192]⟩
abbrev S8192x8192 : Shape := ⟨2, ![8192, 8192]⟩
abbrev S8192 : Shape := ⟨1, ![8192]⟩
abbrev S1 : Shape := ⟨1, ![1]⟩
abbrev S8192x64 : Shape := ⟨2, ![8192, 64]⟩
abbrev S64 : Shape := ⟨1, ![64]⟩
abbrev S1x8192 : Shape := ⟨2, ![1, 8192]⟩
abbrev S_ : Shape := ⟨0, ![]⟩
abbrev S8192x1 : Shape := ⟨2, ![8192, 1]⟩
abbrev S8192x2 : Shape := ⟨2, ![8192, 2]⟩
abbrev S512x64 : Shape := ⟨2, ![512, 64]⟩
abbrev S1x64 : Shape := ⟨2, ![1, 64]⟩
abbrev S64x8192 : Shape := ⟨2, ![64, 8192]⟩

abbrev nBuf : Space → Nat
  | .hbm => 63
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S1, .f32⟩
  | .hbm, ⟨5, _⟩ => ⟨S8192, .i32⟩
  | .hbm, ⟨6, _⟩ => ⟨S8192, .i32⟩
  | .hbm, ⟨7, _⟩ => ⟨S8192, .f32⟩
  | .hbm, ⟨8, _⟩ => ⟨S8192x64, .f32⟩
  | .hbm, ⟨9, _⟩ => ⟨S64, .f32⟩
  | .hbm, ⟨10, _⟩ => ⟨S8192x64, .f32⟩
  | .hbm, ⟨11, _⟩ => ⟨S8192, .f32⟩
  | .hbm, ⟨12, _⟩ => ⟨S1x8192, .f32⟩
  | .hbm, ⟨13, _⟩ => ⟨S512x8192, .f32⟩
  | .hbm, ⟨14, _⟩ => ⟨S512x8192, .f32⟩
  | .hbm, ⟨15, _⟩ => ⟨S_, .f32⟩
  | .hbm, ⟨16, _⟩ => ⟨S512x8192, .f32⟩
  | .hbm, ⟨17, _⟩ => ⟨S512x8192, .f32⟩
  | .hbm, ⟨18, _⟩ => ⟨S512x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512x8192, .f32⟩
  | .hbm, ⟨23, _⟩ => ⟨S512x8192, .f32⟩
  | .hbm, ⟨24, _⟩ => ⟨S_, .f32⟩
  | .hbm, ⟨25, _⟩ => ⟨S512x8192, .f32⟩
  | .hbm, ⟨26, _⟩ => ⟨S512x8192, .f32⟩
  | .hbm, ⟨27, _⟩ => ⟨S512x8192, .f32⟩
  | .hbm, ⟨28, _⟩ => ⟨S512x8192, .f32⟩
  | .hbm, ⟨29, _⟩ => ⟨S8192x8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x1, .i32⟩
  | .hbm, ⟨49, _⟩ => ⟨S8192x2, .i32⟩
  | .hbm, ⟨50, _⟩ => ⟨S8192x8192, .f32⟩
  | .hbm, ⟨51, _⟩ => ⟨S8192x8192, .f32⟩
  | .hbm, ⟨52, _⟩ => ⟨S512x8192, .f32⟩
  | .hbm, ⟨53, _⟩ => ⟨S512x64, .f32⟩
  | .hbm, ⟨54, _⟩ => ⟨S1x64, .f32⟩
  | .hbm, ⟨55, _⟩ => ⟨S512x64, .f32⟩
  | .hbm, ⟨56, _⟩ => ⟨S512x64, .f32⟩
  | .hbm, ⟨57, _⟩ => ⟨S64x8192, .f32⟩
  | .hbm, ⟨58, _⟩ => ⟨S512x8192, .f32⟩
  | .hbm, ⟨59, _⟩ => ⟨S512x8192, .f32⟩
  | .hbm, ⟨60, _⟩ => ⟨S1x8192, .f32⟩
  | .hbm, ⟨61, _⟩ => ⟨S512x8192, .f32⟩
  | .hbm, ⟨62, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  shapeCasts_S1_S_ : S1.ShapeCasts S_
  bcast_S_S512x8192 : S_.BroadcastsInDim S512x8192 (![] : Fin 0 → Fin S512x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  transposes_S8192x8192_S8192x8192_1_0 : S8192x8192.Transposes [1, 0] S8192x8192
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  transposes_S8192x64_S64x8192_1_0 : S8192x64.Transposes [1, 0] S64x8192
  scatter_S8192x8192_S8192x2_S8192_n_01_01_1_wf : ScatterDims.WF S8192x8192 S8192x2 S8192 [] [0, 1] [0, 1] 1
  dot_S512x8192_S8192x8192_S512x8192_1_0_0_1_n_n_wf : DotDims.WF S512x8192 S8192x8192 S512x8192 [1] [0] [0] [1] [] []
  dot_S512x8192_S8192x64_S512x64_1_0_0_1_n_n_wf : DotDims.WF S512x8192 S8192x64 S512x64 [1] [0] [0] [1] [] []
  dot_S512x64_S64x8192_S512x8192_1_0_0_1_n_n_wf : DotDims.WF S512x64 S64x8192 S512x8192 [1] [0] [0] [1] [] []

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S512x8192_S8192x8192_S512x8192_1_0_0_1_n_n : DotDims S512x8192 S8192x8192 S512x8192 where
  lhsContracting := [1]
  rhsContracting := [0]
  lhsNonContracting := [0]
  rhsNonContracting := [1]
  lhsBatch := []
  rhsBatch := []
  wf := dot_S512x8192_S8192x8192_S512x8192_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x8192_S512x8192_1_0_0_1_n_n : DotDims S512x64 S64x8192 S512x8192 where
  lhsContracting := [1]
  rhsContracting := [0]
  lhsNonContracting := [0]
  rhsNonContracting := [1]
  lhsBatch := []
  rhsBatch := []
  wf := dot_S512x64_S64x8192_S512x8192_1_0_0_1_n_n_wf

class Facts : Prop extends Facts₀ where

variable [Facts]
-- ==== Proof.Spec.lean ====
/-
  The two sides of the claim at one output entry, as plain functions, and the law that joins them.

  Fix a token `t` and an output channel `o`. Write `xd` for the dequantised activations, `qf` for the integer
  weights read as numbers, `ws` for the per-channel weight scale, `xv` for the activations projected on the
  low-rank factor, `u` for the other factor, `b` for the bias, and let outlier `i` sit at row `row i`, column
  `col i` with value `vals i`.

  The kernel scales the integer product by the channel's scale afterwards and adds the outliers as a separate
  correction, a sum over the outliers of row `o`:
      ((Σ_k xd t k · qf o k) · ws o + Σ_r xv t r · u o r) + Σ_{i : row i = o} xd t (col i) · vals i + b o.
  The reference first builds the dense weight, scale and outliers folded in, and multiplies once:
      (Σ_k xd t k · (qf o k · ws o + Σ_{i : row i = o, col i = k} vals i)) + Σ_r xv t r · u o r + b o.
  When `xd`, `qf`, `ws` and `vals` take real values the two agree: the product distributes over the inner sum,
  and summing over `k` the outliers of row `o` that sit in column `k` visits each outlier of row `o` once, at
  `k = col i`. Distributivity is where finiteness is used; the low-rank term and the bias are the same on both
  sides and only change places in the sum.
-/
import Idealize.ShloMosaic.PureOps.Ideal

noncomputable section

namespace Cert.Spec

open Finset

/-- The kernel's value at entry `(t, o)`. -/
def kernelEntry {nT nK nO nR nN : Nat} (xd : Fin nT → Fin nK → EReal) (qf : Fin nO → Fin nK → EReal) (ws : Fin nO → EReal)
    (xv : Fin nT → Fin nR → EReal) (u : Fin nO → Fin nR → EReal) (vals : Fin nN → EReal) (b : Fin nO → EReal)
    (row : Fin nN → Fin nO) (col : Fin nN → Fin nK) (t : Fin nT) (o : Fin nO) : EReal :=
  (((∑ k, xd t k * qf o k) * ws o + ∑ r, xv t r * u o r)
    + ∑ i ∈ univ.filter (fun i => row i = o), xd t (col i) * vals i) + b o

/-- The reference's value at entry `(t, o)`. -/
def refEntry {nT nK nO nR nN : Nat} (xd : Fin nT → Fin nK → EReal) (qf : Fin nO → Fin nK → EReal) (ws : Fin nO → EReal)
    (xv : Fin nT → Fin nR → EReal) (u : Fin nO → Fin nR → EReal) (vals : Fin nN → EReal) (b : Fin nO → EReal)
    (row : Fin nN → Fin nO) (col : Fin nN → Fin nK) (t : Fin nT) (o : Fin nO) : EReal :=
  ((∑ k, xd t k * (qf o k * ws o + ∑ i ∈ univ.filter (fun i => row i = o ∧ col i = k), vals i))
    + ∑ r, xv t r * u o r) + b o

/-- A finite sum of reals, read in the extended reals, is the sum of the terms read there. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Over the reals: a weighted sum against "scaled weight plus the outliers of this row in column k" is the scaled
    weighted sum plus one term per outlier of the row, taken at the outlier's own column. -/
theorem fold_outliers_real {κ ι : Type} [Fintype κ] [Fintype ι] [DecidableEq κ] (x q : κ → ℝ) (w : ℝ) (v : ι → ℝ)
    (P : ι → Prop) [DecidablePred P] (c : ι → κ) :
    ∑ k, x k * (q k * w + ∑ i ∈ univ.filter (fun i => P i ∧ c i = k), v i)
      = (∑ k, x k * q k) * w + ∑ i ∈ univ.filter P, x (c i) * v i := by
  have h1 : ∀ k, x k * (q k * w + ∑ i ∈ univ.filter (fun i => P i ∧ c i = k), v i)
      = x k * q k * w + ∑ i ∈ univ.filter P, if c i = k then x (c i) * v i else 0 := by
    intro k
    rw [mul_add, Finset.mul_sum, mul_assoc, ← Finset.sum_filter, Finset.filter_filter]
    congr 1
    refine Finset.sum_congr rfl ?_
    intro i hi
    rw [(Finset.mem_filter.mp hi).2.2]
  rw [Finset.sum_congr rfl (fun k _ => h1 k), Finset.sum_add_distrib, ← Finset.sum_mul, Finset.sum_comm]
  congr 1
  refine Finset.sum_congr rfl (fun i _ => ?_)
  rw [Finset.sum_ite_eq]
  simp

/-- The same over the extended reals, for real-valued data. -/
theorem fold_outliers {κ ι : Type} [Fintype κ] [Fintype ι] [DecidableEq κ] (x q : κ → EReal) (w : EReal) (v : ι → EReal)
    (P : ι → Prop) [DecidablePred P] (c : ι → κ)
    (hx : ∀ k, ∃ r : ℝ, x k = r) (hq : ∀ k, ∃ r : ℝ, q k = r) (hw : ∃ r : ℝ, w = r) (hv : ∀ i, ∃ r : ℝ, v i = r) :
    ∑ k, x k * (q k * w + ∑ i ∈ univ.filter (fun i => P i ∧ c i = k), v i)
      = (∑ k, x k * q k) * w + ∑ i ∈ univ.filter P, x (c i) * v i := by
  choose xr hxr using hx
  choose qr hqr using hq
  obtain ⟨wr, rfl⟩ := hw
  choose vr hvr using hv
  simp only [hxr, hqr, hvr, ← EReal.coe_mul, ← EReal.coe_add, ← coe_sum]
  exact congrArg _ (fold_outliers_real xr qr wr vr P c)

/-- THE LAW: for real-valued activations, weights, scales and outlier values the kernel's entry is the reference's. -/
theorem kernelEntry_eq_refEntry {nT nK nO nR nN : Nat} (xd : Fin nT → Fin nK → EReal) (qf : Fin nO → Fin nK → EReal)
    (ws : Fin nO → EReal) (xv : Fin nT → Fin nR → EReal) (u : Fin nO → Fin nR → EReal) (vals : Fin nN → EReal)
    (b : Fin nO → EReal) (row : Fin nN → Fin nO) (col : Fin nN → Fin nK)
    (hxd : ∀ t k, ∃ r : ℝ, xd t k = r) (hqf : ∀ o k, ∃ r : ℝ, qf o k = r) (hws : ∀ o, ∃ r : ℝ, ws o = r)
    (hv : ∀ i, ∃ r : ℝ, vals i = r) (t : Fin nT) (o : Fin nO) :
    kernelEntry xd qf ws xv u vals b row col t o = refEntry xd qf ws xv u vals b row col t o := by
  unfold kernelEntry refEntry
  rw [fold_outliers (fun k => xd t k) (fun k => qf o k) (ws o) vals (fun i => row i = o) col
    (hxd t) (hqf o) (hws o) hv, add_right_comm ((∑ k, xd t k * qf o k) * ws o)]

end Cert.Spec

end
-- ==== Proof.PreFacts.lean ====
/-
  What the precondition says of the inputs the proof leans on.

  The precondition is a conjunction of "all entries" tests. Three of its finiteness tests are used: the weight
  scale, the activation scale and the outlier values are real numbers. Its four index tests say that every row word
  and every column word of the outlier list lies in [0, 8192), that is, numbers an actual row and column.
-/
import proofs.«405569_j22110491639903_3_alg».proof.Pre_finite_inputs
import proofs.«405569_j22110491639903_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The scalar shape has a single index. -/
local instance : Subsingleton S_.Idx := ⟨fun a b => funext fun d => d.elim0⟩

/-- The pattern the finiteness tests compare against denotes +∞. -/
theorem inf_pattern : Ideal.ofBits .f32 0x7F800000#32 = (⊤ : EReal) := by
  simp [Ideal.ofBits, Ideal.ieee]

/-- An extended real whose absolute value lies strictly below +∞ is a real number: at -∞ and at +∞ the absolute
    value is +∞ itself. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | top => simp [Ideal.cmp] at h
  | coe r => exact ⟨r, rfl⟩

/-- A finiteness test ("all entries have |x| < +∞") that came out 1: every entry is a real number. -/
theorem real_of_finite_test {s : Shape} {axes : List (Fin s.rank)} (x : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi (cmpf .olt (Host.absf x) (broadcastInDim s ![] hb (constant S_ .f32 0x7F800000#32)))
      init hr h0 j = 1#1) (i : s.Idx) : ∃ r : ℝ, x i = (r : EReal) :=
  real_of_abs_lt_inf (x i) (Host.reduce_andi_all _ init hr h0 j e i)

/-- A test "all words are ≥ 0, signed" that came out 1: every word reads nonnegative. -/
theorem nonneg_of_sge_test {s : Shape} {axes : List (Fin s.rank)} (x : IVec s 32)
    (hb : S_.BroadcastsInDim s (![] : Fin 0 → Fin s.rank)) (hr : s.ReducesTo axes S_) (h0 : 0 < S_.numel)
    (init : IVec S_ 1) (j : S_.Idx)
    (e : Host.reduce IntOp.andi (cmpi .sge x (broadcastInDim s ![] hb (constantI S_ 32 0#32))) init hr h0 j = 1#1)
    (i : s.Idx) : 0 ≤ BitVec.toInt (x i) := by
  have hi : IntOp.cmpi .sge (x i) 0#32 = 1#1 := Host.reduce_andi_all _ init hr h0 j e i
  have := IntOp.cmpi_sge.1 hi
  simpa using this

/-- A test "all words are < 8192, signed" that came out 1: every word reads below 8192. -/
theorem lt_of_slt_test {s : Shape} {axes : List (Fin s.rank)} (x : IVec s 32)
    (hb : S_.BroadcastsInDim s (![] : Fin 0 → Fin s.rank)) (hr : s.ReducesTo axes S_) (h0 : 0 < S_.numel)
    (init : IVec S_ 1) (j : S_.Idx)
    (e : Host.reduce IntOp.andi (cmpi .slt x (broadcastInDim s ![] hb (constantI S_ 32 8192#32))) init hr h0 j = 1#1)
    (i : s.Idx) : BitVec.toInt (x i) < 8192 := by
  have hi : IntOp.cmpi .slt (x i) 8192#32 = 1#1 := Host.reduce_andi_all _ init hr h0 j e i
  have := IntOp.cmpi_slt.1 hi
  simpa using this

/-- From the precondition: real weight scales, a real activation scale, real outlier values, and row and column
    words in range. -/
theorem facts_of_pre (a0 : FVec Ideal S512x8192 .f32) (a1 : IVec S8192x8192 32) (a2 a3 : FVec Ideal S8192 .f32)
    (a4 : FVec Ideal S1 .f32) (a5 a6 : IVec S8192 32) (a7 : FVec Ideal S8192 .f32) (a8 : FVec Ideal S8192x64 .f32)
    (a9 : FVec Ideal S64 .f32) (a10 : FVec Ideal S8192x64 .f32) (a11 : FVec Ideal S8192 .f32)
    (h : Cert.Pre_finite_inputs.fn (F := Ideal) a0 a1 a2 a3 a4 a5 a6 a7 a8 a9 a10 a11 = fun _ => 1#1) :
    (∀ i : Fin 8192, ∃ r : ℝ, a2 (ix1 i) = (r : EReal))
    ∧ (∃ r : ℝ, a4 (ix1 (0 : Fin 1)) = (r : EReal))
    ∧ (∀ i : Fin 8192, ∃ r : ℝ, a7 (ix1 i) = (r : EReal))
    ∧ (∀ i : Fin 8192, 0 ≤ BitVec.toInt (a5 (ix1 i)) ∧ BitVec.toInt (a5 (ix1 i)) < 8192)
    ∧ (∀ i : Fin 8192, 0 ≤ BitVec.toInt (a6 (ix1 i)) ∧ BitVec.toInt (a6 (ix1 i)) < 8192) := by
  -- The precondition at its one index is a left-nested conjunction of twelve tests, the last test outermost:
  -- a0, a2, a3, a4, a7, a8, a9, a10, a11 finite, then a5 ≥ 0, a5 < 8192, a6 ≥ 0, a6 < 8192.
  have e := congrFun h ix0
  dsimp only [fn, fn_part1, fn_part2, fn_part3, andi] at e
  obtain ⟨e, c6lt⟩ := IntOp.andi_eq_one.1 e
  obtain ⟨e, c6ge⟩ := IntOp.andi_eq_one.1 e
  obtain ⟨e, c5lt⟩ := IntOp.andi_eq_one.1 e
  obtain ⟨e, c5ge⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, c7⟩ := IntOp.andi_eq_one.1 e
  obtain ⟨e, c4⟩ := IntOp.andi_eq_one.1 e
  obtain ⟨e, -⟩ := IntOp.andi_eq_one.1 e
  obtain ⟨-, c2⟩ := IntOp.andi_eq_one.1 e
  exact ⟨fun i => real_of_finite_test a2 _ _ _ _ _ c2 (ix1 i),
    real_of_finite_test a4 _ _ _ _ _ c4 (ix1 0),
    fun i => real_of_finite_test a7 _ _ _ _ _ c7 (ix1 i),
    fun i => ⟨nonneg_of_sge_test a5 _ _ _ _ _ c5ge (ix1 i), lt_of_slt_test a5 _ _ _ _ _ c5lt (ix1 i)⟩,
    fun i => ⟨nonneg_of_sge_test a6 _ _ _ _ _ c6ge (ix1 i), lt_of_slt_test a6 _ _ _ _ _ c6lt (ix1 i)⟩⟩

end Cert.PreFacts

end
-- ==== Proof.LibPointScatter.lean ====
/-
  A point scatter read at one of its entries.

  A scatter with an additive body whose scatter indices are an [n × 2] array of word pairs adds update `i` to the
  operand entry whose row is named by the pair's first word and whose column by its second (each read signed, not
  clamped; a pair that names no entry of the operand adds nothing). At the exact instance each operand entry
  therefore ends at its own value plus the sum of the updates whose pair names it.
-/
import Idealize.ShloMosaic.PureOps.Ideal
import Idealize.ShloMosaic.PureOps.Contract
import Idealize.ShloMosaic.Lib.ValueIdx

noncomputable section

namespace Idealize.ShloMosaic.PointScatter

open Idealize.ShloMosaic.ValueIdx

/-- Operand [P × Q], word pairs [n × 2], updates [n]: update `i` goes to the single entry its pair names. -/
abbrev dimsPair (P Q n : Nat) (wf : ScatterDims.WF ⟨2, ![P, Q]⟩ ⟨2, ![n, 2]⟩ ⟨1, ![n]⟩ [] [0, 1] [0, 1] 1) :
    ScatterDims ⟨2, ![P, Q]⟩ ⟨2, ![n, 2]⟩ ⟨1, ![n]⟩ where
  updateWindowDims := []
  insertedWindowDims := [0, 1]
  scatterDimsToOperandDims := [0, 1]
  indexVectorDim := 1
  wf := wf

section Pair
variable {P Q n w : Nat} (wf : ScatterDims.WF ⟨2, ![P, Q]⟩ ⟨2, ![n, 2]⟩ ⟨1, ![n]⟩ [] [0, 1] [0, 1] 1)

/-- The operand's row axis starts at the first word of the update's pair. -/
private theorem pair_start0 (j : (⟨1, ![n]⟩ : Shape).Idx) (idx : IVec ⟨2, ![n, 2]⟩ w) :
    (dimsPair P Q n wf).start j idx 0 = (idx (ix2 (j 0) (0 : Fin 2))).toInt := by
  unfold ScatterDims.start
  rw [dif_pos (show (0 : Fin 2) ∈ ([0, 1] : List (Fin 2)) by decide)]
  congr 2
  funext b; refine Fin.ext ?_
  match b with
  | ⟨0, _⟩ => rfl
  | ⟨1, _⟩ => rfl

/-- The operand's column axis starts at the second word of the update's pair. -/
private theorem pair_start1 (j : (⟨1, ![n]⟩ : Shape).Idx) (idx : IVec ⟨2, ![n, 2]⟩ w) :
    (dimsPair P Q n wf).start j idx 1 = (idx (ix2 (j 0) (1 : Fin 2))).toInt := by
  unfold ScatterDims.start
  rw [dif_pos (show (1 : Fin 2) ∈ ([0, 1] : List (Fin 2)) by decide)]
  congr 2
  funext b; refine Fin.ext ?_
  match b with
  | ⟨0, _⟩ => rfl
  | ⟨1, _⟩ => rfl

/-- Both operand axes are inserted: no window coordinate on either. -/
private theorem pair_window (j : (⟨1, ![n]⟩ : Shape).Idx) (a : Fin 2) :
    (dimsPair P Q n wf).window j a = 0 := by
  unfold ScatterDims.window
  have h : a ∉ (dimsPair P Q n wf).sKept := by
    show a ∉ (List.finRange 2).filter (· ∉ ([0, 1] : List (Fin 2)))
    revert a; decide
  rw [dif_neg h]

/-- An update lands on entry (p, q) exactly when its pair of words is (p, q). -/
private theorem pair_resultIdx_iff (j : (⟨1, ![n]⟩ : Shape).Idx) (idx : IVec ⟨2, ![n, 2]⟩ w) (p : Fin P) (q : Fin Q) :
    (dimsPair P Q n wf).resultIdx? j idx = some (ix2 p q)
      ↔ (idx (ix2 (j 0) (0 : Fin 2))).toInt = (p.val : Int) ∧ (idx (ix2 (j 0) (1 : Fin 2))).toInt = (q.val : Int) := by
  have hs0 : (⟨2, ![P, Q]⟩ : Shape).size 0 = P := rfl
  have hs1 : (⟨2, ![P, Q]⟩ : Shape).size 1 = Q := rfl
  unfold ScatterDims.resultIdx?
  split
  · rename_i h
    rw [Option.some.injEq]
    constructor
    · intro he
      have h0 := congrArg Fin.val (congrFun he 0)
      have h1 := congrArg Fin.val (congrFun he 1)
      have g0 := h 0
      have g1 := h 1
      simp only [pair_start0, pair_start1, pair_window] at h0 h1 g0 g1
      change _ = p.val at h0
      change _ = q.val at h1
      refine ⟨?_, ?_⟩ <;> omega
    · rintro ⟨h0, h1⟩
      funext a
      refine Fin.ext ?_
      match a with
      | ⟨0, _⟩ =>
        show ((dimsPair P Q n wf).start j idx 0 + ((dimsPair P Q n wf).window j 0 : Int)).toNat = p.val
        rw [pair_start0, pair_window, h0]; omega
      | ⟨1, _⟩ =>
        show ((dimsPair P Q n wf).start j idx 1 + ((dimsPair P Q n wf).window j 1 : Int)).toNat = q.val
        rw [pair_start1, pair_window, h1]; omega
  · rename_i h
    constructor
    · intro he; exact absurd he (by simp)
    · rintro ⟨h0, h1⟩
      exfalso; apply h
      intro a
      match a with
      | ⟨0, _⟩ =>
        show 0 ≤ (dimsPair P Q n wf).start j idx 0 + ((dimsPair P Q n wf).window j 0 : Int)
          ∧ (dimsPair P Q n wf).start j idx 0 + ((dimsPair P Q n wf).window j 0 : Int) < ((⟨2, ![P, Q]⟩ : Shape).size 0 : Nat)
        have := p.isLt
        rw [pair_start0, pair_window, h0, hs0]; omega
      | ⟨1, _⟩ =>
        show 0 ≤ (dimsPair P Q n wf).start j idx 1 + ((dimsPair P Q n wf).window j 1 : Int)
          ∧ (dimsPair P Q n wf).start j idx 1 + ((dimsPair P Q n wf).window j 1 : Int) < ((⟨2, ![P, Q]⟩ : Shape).size 1 : Nat)
        have := q.isLt
        rw [pair_start1, pair_window, h1, hs1]; omega
end Pair

/-- Entry (p, q) ends at its own value plus the sum of the updates whose pair of words is (p, q). -/
theorem scatterAdd_pair_apply {P Q n w : Nat} (wf : ScatterDims.WF ⟨2, ![P, Q]⟩ ⟨2, ![n, 2]⟩ ⟨1, ![n]⟩ [] [0, 1] [0, 1] 1)
    (x : (⟨2, ![P, Q]⟩ : Shape).Idx → EReal) (idx : IVec ⟨2, ![n, 2]⟩ w) (upd : (⟨1, ![n]⟩ : Shape).Idx → EReal)
    (p : Fin P) (q : Fin Q) :
    Ideal.hostScatterAdd (dimsPair P Q n wf) x idx upd (ix2 p q)
      = x (ix2 p q) + ∑ i ∈ Finset.univ.filter (fun i : Fin n =>
          (idx (ix2 i (0 : Fin 2))).toInt = (p.val : Int) ∧ (idx (ix2 i (1 : Fin 2))).toInt = (q.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (pair_resultIdx_iff wf j idx p q).mp hj'⟩
  · intro i hi
    have hi' := (Finset.mem_filter.mp hi).2
    exact Finset.mem_filter.mpr ⟨Finset.mem_univ _, (pair_resultIdx_iff wf (ix1 i) idx p q).mpr hi'⟩
  · intro j _
    exact (eq_ix1 j).symm
  · intro i _
    rfl
  · intro j _
    exact congrArg upd (eq_ix1 j)

/-- The same read stated for the host's accumulating scatter at the exact instance. -/
theorem scatterAdd_pair_host {P Q n w : Nat} {φ : FTy}
    (wf : ScatterDims.WF ⟨2, ![P, Q]⟩ ⟨2, ![n, 2]⟩ ⟨1, ![n]⟩ [] [0, 1] [0, 1] 1)
    (x : FVec Ideal ⟨2, ![P, Q]⟩ φ) (idx : IVec ⟨2, ![n, 2]⟩ w) (upd : FVec Ideal ⟨1, ![n]⟩ φ) (p : Fin P) (q : Fin Q) :
    Host.scatterAdd (dimsPair P Q n wf) x idx upd (ix2 p q)
      = x (ix2 p q) + ∑ i ∈ Finset.univ.filter (fun i : Fin n =>
          (idx (ix2 i (0 : Fin 2))).toInt = (p.val : Int) ∧ (idx (ix2 i (1 : Fin 2))).toInt = (q.val : Int)), upd (ix1 i) :=
  scatterAdd_pair_apply wf x idx upd p q

end Idealize.ShloMosaic.PointScatter

end
-- ==== Proof.RefEntry.lean ====
/-
  The reference's result at one entry.

  Reading the reference one operation at a time: its dense weight is the integer weight times the channel's scale,
  with each outlier value added at the entry its (row, column) pair names; the result is the dequantised activations
  against that weight, plus the low-rank term, plus the bias. When every row and column word is the number of an
  actual row and column, the pairs that name entry (o, k) are the outliers with `row i = o` and `col i = k`.
-/
import proofs.«405569_j22110491639903_3_alg».proof.Proof.Gen.ReferenceIdeal.Read
import proofs.«405569_j22110491639903_3_alg».proof.Proof.LibPointScatter
import proofs.«405569_j22110491639903_3_alg».proof.Proof.Spec
import Idealize.ShloMosaic.Lib.ValueIdx
import Idealize.ShloMosaic.Lib.Pipeline.Value
import Idealize.ShloMosaic.PureOps.Ideal.Laws

noncomputable section

namespace Cert.RefEntry

open Idealize.ShloMosaic Idealize.ShloMosaic.ValueIdx Cert.ReferenceIdeal Cert.ReferenceIdeal.Read

/-- A one-entry array viewed as a scalar has that entry as its only element. -/
theorem v3_apply (x4 : (⟨S1, .f32⟩ : BufTy).Contents (Elt Ideal)) (j : S_.Idx) :
    val_main_v3 (F := Ideal) x4 j = x4 (ix1 (0 : Fin 1)) := by
  unfold val_main_v3
  exact shapeCast_apply x4 _ j (ix1 (0 : Fin 1)) rfl

/-- The upper clip bound, 127, is a real number. -/
theorem hi_real : ∃ r : ℝ, Ideal.ofBits .f32 0x42FE0000#32 = (r : EReal) := by
  refine ⟨127, ?_⟩
  simp [Ideal.ofBits, Ideal.ieee, -EReal.coe_mul]
  norm_num

/-- The lower clip bound, -128, is a real number. -/
theorem lo_real : ∃ r : ℝ, Ideal.ofBits .f32 0xC3000000#32 = (r : EReal) := by
  refine ⟨-128, ?_⟩
  simp [Ideal.ofBits, Ideal.ieee, -EReal.coe_mul]
  norm_num

/-- Clipping any extended real, infinite or not, between two real bounds gives a real number: the result is at most
    the upper bound, so it is not ⊤, and it is above ⊥ because both the upper bound and the lower bound are. -/
theorem clip_real (lo hi y : EReal) (hlo : ∃ r : ℝ, lo = (r : EReal)) (hhi : ∃ r : ℝ, hi = (r : EReal)) :
    ∃ r : ℝ, min hi (max lo y) = (r : EReal) := by
  obtain ⟨a, rfl⟩ := hlo
  obtain ⟨b, rfl⟩ := hhi
  have ht : min (b : EReal) (max (a : EReal) y) ≠ ⊤ :=
    ne_top_of_le_ne_top (EReal.coe_ne_top b) (min_le_left _ _)
  have hb : min (b : EReal) (max (a : EReal) y) ≠ ⊥ :=
    ne_of_gt (lt_min (EReal.bot_lt_coe b) (lt_of_lt_of_le (EReal.bot_lt_coe a) (le_max_left _ _)))
  exact ⟨_, (EReal.coe_toReal ht hb).symm⟩

/-- The dequantised activations are real numbers as soon as the activation scale is: the clip bounds the quantised
    value between -128 and 127 whatever was divided, and a bounded value times a real scale is real. -/
theorem xdq_real (x0 : (⟨S512x8192, .f32⟩ : BufTy).Contents (Elt Ideal)) (x3 : (⟨S8192, .f32⟩ : BufTy).Contents (Elt Ideal))
    (x4 : (⟨S1, .f32⟩ : BufTy).Contents (Elt Ideal)) (ha : ∃ r : ℝ, x4 (ix1 (0 : Fin 1)) = (r : EReal)) (i : S512x8192.Idx) :
    ∃ r : ℝ, val_main_v9 (F := Ideal) x0 x3 x4 i = (r : EReal) := by
  rw [val_main_v9_apply, val_main_v7_apply, val_main_call1_v2_apply, val_main_call1_v4_apply, val_main_call1_v3_apply,
    val_main_cst_0_apply, val_main_call1_v1_apply, val_main_call1_v0_apply, val_main_cst_apply, val_main_v8_apply,
    v3_apply, Ideal.mulf_def, Ideal.minimumf_def, Ideal.maximumf_def, Ideal.ofBits_def, Ideal.ofBits_def]
  obtain ⟨q, hq⟩ := clip_real _ _ (val_main_v6 (F := Ideal) x0 x3 x4 i) lo_real hi_real
  obtain ⟨a, ha'⟩ := ha
  exact ⟨q * a, by rw [hq, ha', EReal.coe_mul]⟩

/-- An integer weight read as a number is real. -/
theorem qf_real (x1 : (⟨S8192x8192, .i32⟩ : BufTy).Contents (Elt Ideal)) (i : S8192x8192.Idx) :
    ∃ r : ℝ, sitofp (F := Ideal) .f32 x1 i = (r : EReal) := by
  exact ⟨((x1 i).toInt : ℝ), rfl⟩

/-- A word that is not negative is left alone by "add the extent if negative". -/
theorem select_slt_zero_of_nonneg (w a : BitVec 32) (h : 0 ≤ w.toInt) :
    Scalar.select (IntOp.cmpi .slt w 0#32) a w = w := by
  have hc : ¬ IntOp.cmpi .slt w 0#32 = 1#1 := by
    rw [IntOp.cmpi_slt]
    have h0 : (0#32 : BitVec 32).toInt = 0 := by decide
    rw [h0]; omega
  rw [eq_zero_of_ne_one hc, select_zero]

/-- The wrapped row word of an outlier is the row word itself when that word is not negative. -/
theorem v18_at (x5 : (⟨S8192, .i32⟩ : BufTy).Contents (Elt Ideal)) (i : Fin 8192)
    (h : 0 ≤ BitVec.toInt (x5 (ix1 i))) : val_main_v18 (F := Ideal) x5 (ix1 i) = x5 (ix1 i) := by
  rw [val_main_v18_apply, val_main_v15_apply, val_main_v14_apply, val_main_c_apply]
  exact select_slt_zero_of_nonneg _ _ h

/-- The wrapped column word of an outlier is the column word itself when that word is not negative. -/
theorem v23_at (x6 : (⟨S8192, .i32⟩ : BufTy).Contents (Elt Ideal)) (i : Fin 8192)
    (h : 0 ≤ BitVec.toInt (x6 (ix1 i))) : val_main_v23 (F := Ideal) x6 (ix1 i) = x6 (ix1 i) := by
  rw [val_main_v23_apply, val_main_v20_apply, val_main_v19_apply, val_main_c_2_apply]
  exact select_slt_zero_of_nonneg _ _ h

/-- Column 0 of the index pairs is the column of wrapped row words. -/
theorem v26_at0 (x5 x6 : (⟨S8192, .i32⟩ : BufTy).Contents (Elt Ideal)) (i : Fin 8192) :
    val_main_v26 (F := Ideal) x5 x6 (ix2 i (0 : Fin 2)) = val_main_v18 (F := Ideal) x5 (ix1 i) := by
  unfold val_main_v26
  rw [concatenate_pair_apply_left (s₁ := S8192x1) (s₂ := S8192x1) (1 : Fin S8192x2.rank) _ _ _ (ix2 i (0 : Fin 2)) rfl
    (ix2 i (0 : Fin 1)) (fun b => by match b with | ⟨0, _⟩ => rfl | ⟨1, _⟩ => rfl), val_main_v24_apply]
  exact congrArg _ (funext fun a => by match a with | ⟨0, _⟩ => rfl)

/-- Column 1 of the index pairs is the column of wrapped column words. -/
theorem v26_at1 (x5 x6 : (⟨S8192, .i32⟩ : BufTy).Contents (Elt Ideal)) (i : Fin 8192) :
    val_main_v26 (F := Ideal) x5 x6 (ix2 i (1 : Fin 2)) = val_main_v23 (F := Ideal) x6 (ix1 i) := by
  unfold val_main_v26
  rw [concatenate_pair_apply_right (s₁ := S8192x1) (s₂ := S8192x1) (1 : Fin S8192x2.rank) _ _ _ (ix2 i (1 : Fin 2)) rfl rfl
    (ix2 i (0 : Fin 1)) (fun b hb => by match b with | ⟨0, _⟩ => rfl | ⟨1, _⟩ => exact absurd rfl hb) rfl,
    val_main_v25_apply]
  exact congrArg _ (funext fun a => by match a with | ⟨0, _⟩ => rfl)

/-- The dense weight at (o, k): the integer weight times the row's scale, plus the values of the outliers whose
    pair is (o, k). Under the hypotheses a pair's words are the row and column numbers, and two numbers below the
    extent are equal as integers exactly when they are equal. -/
theorem v27_at (x1 : (⟨S8192x8192, .i32⟩ : BufTy).Contents (Elt Ideal)) (x2 : (⟨S8192, .f32⟩ : BufTy).Contents (Elt Ideal))
    (x5 x6 : (⟨S8192, .i32⟩ : BufTy).Contents (Elt Ideal)) (x7 : (⟨S8192, .f32⟩ : BufTy).Contents (Elt Ideal))
    (row col : Fin 8192 → Fin 8192)
    (hr : ∀ i : Fin 8192, BitVec.toInt (x5 (ix1 i)) = ((row i).val : Int))
    (hc : ∀ i : Fin 8192, BitVec.toInt (x6 (ix1 i)) = ((col i).val : Int)) (o k : Fin 8192) :
    val_main_v27 (F := Ideal) x1 x2 x5 x6 x7 (ix2 o k)
      = sitofp (F := Ideal) .f32 x1 (ix2 o k) * x2 (ix1 o)
        + ∑ i ∈ Finset.univ.filter (fun i => row i = o ∧ col i = k), x7 (ix1 i) := by
  unfold val_main_v27
  rw [show scatter_S8192x8192_S8192x2_S8192_n_01_01_1
      = PointScatter.dimsPair 8192 8192 8192 Gen.scatter_S8192x8192_S8192x2_S8192_n_01_01_1_wf from rfl,
    PointScatter.scatterAdd_pair_host]
  congr 1
  · rw [val_main_v13_apply, val_main_v12_apply, val_main_v11_apply]
    exact congrArg (fun j => sitofp (F := Ideal) .f32 x1 (ix2 o k) * x2 j)
      (funext fun a => by match a with | ⟨0, _⟩ => rfl)
  · refine Finset.sum_congr (Finset.filter_congr fun i _ => ?_) (fun _ _ => rfl)
    rw [v26_at0, v26_at1, v18_at x5 i (by rw [hr]; exact Int.natCast_nonneg _),
      v23_at x6 i (by rw [hc]; exact Int.natCast_nonneg _), hr, hc, Int.natCast_inj, Int.natCast_inj,
      Fin.val_inj, Fin.val_inj]

/-- THE REFERENCE AT ENTRY (t, o), for row and column words that number actual rows and columns. -/
theorem ref_entry (x0 : (⟨S512x8192, .f32⟩ : BufTy).Contents (Elt Ideal)) (x1 : (⟨S8192x8192, .i32⟩ : BufTy).Contents (Elt Ideal))
    (x2 x3 : (⟨S8192, .f32⟩ : BufTy).Contents (Elt Ideal)) (x4 : (⟨S1, .f32⟩ : BufTy).Contents (Elt Ideal))
    (x5 x6 : (⟨S8192, .i32⟩ : BufTy).Contents (Elt Ideal)) (x7 : (⟨S8192, .f32⟩ : BufTy).Contents (Elt Ideal))
    (x8 : (⟨S8192x64, .f32⟩ : BufTy).Contents (Elt Ideal)) (x9 : (⟨S64, .f32⟩ : BufTy).Contents (Elt Ideal))
    (x10 : (⟨S8192x64, .f32⟩ : BufTy).Contents (Elt Ideal)) (x11 : (⟨S8192, .f32⟩ : BufTy).Contents (Elt Ideal))
    (row col : Fin 8192 → Fin 8192)
    (hr : ∀ i : Fin 8192, BitVec.toInt (x5 (ix1 i)) = ((row i).val : Int))
    (hc : ∀ i : Fin 8192, BitVec.toInt (x6 (ix1 i)) = ((col i).val : Int))
    (t : Fin 512) (o : Fin 8192) :
    val_main_v39 (F := Ideal) x0 x1 x2 x3 x4 x5 x6 x7 x8 x9 x10 x11 (ix2 t o)
      = Cert.Spec.refEntry (fun t k => val_main_v9 (F := Ideal) x0 x3 x4 (ix2 t k))
          (fun o k => sitofp (F := Ideal) .f32 x1 (ix2 o k)) (fun o => x2 (ix1 o))
          (fun t r => val_main_v33 (F := Ideal) x0 x3 x4 x9 x10 (ix2 t r)) (fun o r => x8 (ix2 o r))
          (fun i => x7 (ix1 i)) (fun o => x11 (ix1 o)) row col t o := by
  unfold Cert.Spec.refEntry
  rw [val_main_v39_apply, val_main_v36_apply, val_main_v29_apply, val_main_v35_apply, val_main_v38_apply,
    val_main_v37_apply, Ideal.addf_def, Ideal.addf_def]
  have h29 : ∀ k : Fin 8192,
      val_main_v9 (F := Ideal) x0 x3 x4 (lidx_main_v29 (ix2 t o) k)
          * val_main_v28 (F := Ideal) x1 x2 x5 x6 x7 (ridx_main_v29 (ix2 t o) k)
        = val_main_v9 (F := Ideal) x0 x3 x4 (ix2 t k)
          * (sitofp (F := Ideal) .f32 x1 (ix2 o k) * x2 (ix1 o)
            + ∑ i ∈ Finset.univ.filter (fun i => row i = o ∧ col i = k), x7 (ix1 i)) := by
    intro k
    rw [show lidx_main_v29 (ix2 t o) k = ix2 t k from
        funext fun a => Fin.ext (by match a with | ⟨0, _⟩ => rfl | ⟨1, _⟩ => rfl),
      show ridx_main_v29 (ix2 t o) k = ix2 k o from
        funext fun a => Fin.ext (by match a with | ⟨0, _⟩ => rfl | ⟨1, _⟩ => rfl),
      val_main_v28_apply,
      show idx_main_v28 (ix2 k o) = ix2 o k from
        funext fun a => Fin.ext (by match a with | ⟨0, _⟩ => rfl | ⟨1, _⟩ => rfl),
      v27_at x1 x2 x5 x6 x7 row col hr hc o k]
  have h35 : ∀ r : Fin 64,
      val_main_v33 (F := Ideal) x0 x3 x4 x9 x10 (lidx_main_v35 (ix2 t o) r)
          * val_main_v34 (F := Ideal) x8 (ridx_main_v35 (ix2 t o) r)
        = val_main_v33 (F := Ideal) x0 x3 x4 x9 x10 (ix2 t r) * x8 (ix2 o r) := by
    intro r
    rw [show lidx_main_v35 (ix2 t o) r = ix2 t r from
        funext fun a => Fin.ext (by match a with | ⟨0, _⟩ => rfl | ⟨1, _⟩ => rfl),
      show ridx_main_v35 (ix2 t o) r = ix2 r o from
        funext fun a => Fin.ext (by match a with | ⟨0, _⟩ => rfl | ⟨1, _⟩ => rfl),
      val_main_v34_apply,
      show idx_main_v34 (ix2 r o) = ix2 o r from
        funext fun a => Fin.ext (by match a with | ⟨0, _⟩ => rfl | ⟨1, _⟩ => rfl)]
  have h11 : idx_main_v37 (idx_main_v38 (ix2 t o)) = ix1 o :=
    funext fun a => by match a with | ⟨0, _⟩ => rfl
  rw [Finset.sum_congr rfl (fun k _ => h29 k), Finset.sum_congr rfl (fun r _ => h35 r), h11]

end Cert.RefEntry

end
-- ==== Proof.KernelArrays.lean ====
/-
  Names for the arrays of the kernel's program, each at its literal type.

  The arrays the seven input windows stage, the output array after the run, and the argument arrays the host prelude
  reads, as plain functions from an index to an extended real (or to a 32-bit word for the integer arrays).
-/
import proofs.«405569_j22110491639903_3_alg».proof.Proof.Gen.KernelIdeal.Frame
import proofs.«405569_j22110491639903_3_alg».proof.Proof.Gen.ReferenceIdeal.Read

noncomputable section

namespace Cert.KernelArrays

open Idealize.ShloMosaic Idealize.ShloMosaic.TcCoe Idealize.SL.Sem
open Cert.KernelIdeal Cert.KernelIdeal.Gen

variable (m : (ℓ : Loc nD τ sig) → Buf (Elt Ideal) ℓ)

/-- Window 0's array: the integer weight. -/
abbrev qwArr (c : Dev nD) : S8192x8192.Idx → BitVec 32 := V m c main_arg1
/-- Window 1's array: the weight scale as one row. -/
abbrev wsRow (c : Dev nD) : S1x8192.Idx → EReal := V m c main_v25
/-- Window 2's array: the dequantised activations. -/
abbrev xdArr (c : Dev nD) : S512x8192.Idx → EReal := V m c main_v24
/-- Window 3's array: the activations' scaled low-rank projection. -/
abbrev xvArr (c : Dev nD) : S512x64.Idx → EReal := V m c main_v14
/-- Window 4's array: the other low-rank factor. -/
abbrev suArr (c : Dev nD) : S8192x64.Idx → EReal := V m c main_v15
/-- Window 5's array: the outlier correction, channel-major. -/
abbrev corrArr (c : Dev nD) : S8192x512.Idx → EReal := V m c main_v23
/-- Window 6's array: the bias as one row. -/
abbrev biasRow (c : Dev nD) : S1x8192.Idx → EReal := V m c main_v26
/-- The output array after the run. -/
abbrev outArr (c : Dev nD) : S512x8192.Idx → EReal := (dats m 0 c).arrAt 7 cfg0.N

/-- The argument arrays as launched. -/
abbrev arg0 (c : Dev nD) : S512x8192.Idx → EReal := m ((c : Thread nD τ).loc main_arg0)
abbrev arg1 (c : Dev nD) : S8192x8192.Idx → BitVec 32 := m ((c : Thread nD τ).loc main_arg1)
abbrev arg2 (c : Dev nD) : S8192.Idx → EReal := m ((c : Thread nD τ).loc main_arg2)
abbrev arg3 (c : Dev nD) : S8192.Idx → EReal := m ((c : Thread nD τ).loc main_arg3)
abbrev arg4 (c : Dev nD) : S1.Idx → EReal := m ((c : Thread nD τ).loc main_arg4)
abbrev arg5 (c : Dev nD) : S8192.Idx → BitVec 32 := m ((c : Thread nD τ).loc main_arg5)
abbrev arg6 (c : Dev nD) : S8192.Idx → BitVec 32 := m ((c : Thread nD τ).loc main_arg6)
abbrev arg7 (c : Dev nD) : S8192.Idx → EReal := m ((c : Thread nD τ).loc main_arg7)
abbrev arg8 (c : Dev nD) : S8192x64.Idx → EReal := m ((c : Thread nD τ).loc main_arg8)
abbrev arg9 (c : Dev nD) : S64.Idx → EReal := m ((c : Thread nD τ).loc main_arg9)
abbrev arg10 (c : Dev nD) : S8192x64.Idx → EReal := m ((c : Thread nD τ).loc main_arg10)
abbrev arg11 (c : Dev nD) : S8192.Idx → EReal := m ((c : Thread nD τ).loc main_arg11)

/-- The dequantised activations at this memory, in the reference's own words for them. -/
abbrev XD (c : Dev nD) : S512x8192.Idx → EReal :=
  Cert.ReferenceIdeal.Read.val_main_v9 (F := Ideal) (arg0 m c) (arg3 m c) (arg4 m c)

/-- Their low-rank projection, scaled, likewise. -/
abbrev XV (c : Dev nD) : S512x64.Idx → EReal :=
  Cert.ReferenceIdeal.Read.val_main_v33 (F := Ideal) (arg0 m c) (arg3 m c) (arg4 m c) (arg9 m c) (arg10 m c)

end Cert.KernelArrays

end
-- ==== Proof.KernelHost.lean ====
/-
  The arrays the kernel's input windows stage, as the region finds them.

  Before the region the host computes the dequantised activations and their low-rank projection exactly as the
  reference does (the same operations in the same order), narrows them and the other low-rank factor to a shorter
  float format (no change of value here), and lays the weight scale and the bias out as one-row arrays. (The outlier
  correction, window 5's array, is read in its own module.)
-/
import proofs.«405569_j22110491639903_3_alg».proof.Proof.KernelArrays
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelHost

open Idealize.ShloMosaic Idealize.ShloMosaic.ValueIdx Idealize.ShloMosaic.TcCoe Idealize.SL.Sem
open Cert.KernelIdeal Cert.KernelIdeal.Gen Cert.KernelArrays

variable (m : (ℓ : Loc nD τ sig) → Buf (Elt Ideal) ℓ)

/-- The buffers on entry are the launch contents folded through the host operations; the seven stretches are spelt
    here as one line of operations, so that the fold can be read an operation at a time. -/
local macro "host_line" : tactic =>
  `(tactic| (dsimp only [Gen.V]
             simp only [Gen.hostOps0, Gen.hostOps0_1, Gen.hostOps0_2, Gen.hostOps0_3, Gen.hostOps0_4, Gen.hostOps0_5,
               Gen.hostOps0_6, List.flatten_cons, List.flatten_nil, List.append_nil, List.cons_append,
               List.nil_append]))

/-- No host operation writes the integer weight: window 0's array is the argument. -/
theorem qwArr_eq (c : Dev nD) : qwArr m c = arg1 m c :=
  V_main_arg1 m c

/-- Window 2's array is the dequantised activations. -/
theorem xdArr_eq (c : Dev nD) : xdArr m c = XD m c := by
  show (V m c main_v24 : _) = _
  host_line
  -- The one operation that writes this buffer narrows the product x̂ · a to the shorter format; every operation
  -- under it (x / smooth, / a, round, the two clamps, · a) is written once and read where it is used.
  after_results_simp
  -- With exact arithmetic the narrowing is the identity, and what it is applied to is the reference's own chain
  -- of operations over the same three arguments: the two sides are one term.
  rfl

/-- Window 3's array is the scaled projection. -/
theorem xvArr_eq (c : Dev nD) : xvArr m c = XV m c := by
  show (V m c main_v14 : _) = _
  host_line
  -- The buffer is the narrowing of (x̂ · a) · V scaled column by column; as above, each operation under it is
  -- read off the fold.
  after_results_simp
  -- Again the narrowing changes nothing, and the product, the two broadcasts and the scaling are the reference's.
  rfl

/-- Window 4's array is the other low-rank factor. -/
theorem suArr_eq (c : Dev nD) : suArr m c = arg8 m c := by
  show (V m c main_v15 : _) = _
  host_line
  -- Written once, as the narrowing of the argument; no other operation touches it.
  after_results
  -- The narrowing is the identity at exact arithmetic.
  rfl

/-- Window 1's array is the weight scale as one row. -/
theorem wsRow_apply (c : Dev nD) (o : Fin 8192) : wsRow m c (ix2 (0 : Fin 1) o) = arg2 m c (ix1 o) := by
  show (V m c main_v25 : _) _ = _
  host_line
  -- Written once, as the argument's 8192 entries laid out as a 1 × 8192 array.
  after_results
  -- Entry (0, o) of the row and entry o of the vector have the same row-major position, 0 · 8192 + o = o.
  exact shapeCast_a_1a_apply _ _ 0 o

/-- Window 6's array is the bias as one row. -/
theorem biasRow_apply (c : Dev nD) (o : Fin 8192) : biasRow m c (ix2 (0 : Fin 1) o) = arg11 m c (ix1 o) := by
  show (V m c main_v26 : _) _ = _
  host_line
  -- The same layout change, of the bias.
  after_results
  exact shapeCast_a_1a_apply _ _ 0 o

end Cert.KernelHost

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«405569_j22110491639903_3_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.LibRowGather.lean ====
/-
  A gather of whole rows: the operand is an N×C array, the start indices an R×1 array of words, and row `e` of the
  R×C result is the operand's row named by word `e`, read signed and clamped into `[0, N − 1]` (every start index of a
  gather is clamped so that the slice fits). This is what taking rows of a table at an integer vector lowers to.
-/
import Idealize.ShloMosaic.Lib.ValueIdx

noncomputable section

namespace Cert.Lib.RowGather

open Idealize.ShloMosaic Idealize.ShloMosaic.ValueIdx

variable {α : Type}

/-- The dimension numbers of a row gather: the result's axis 1 is the offset axis, the operand's axis 0 is collapsed
    and is the one the start index names, the index vector lies along the start indices' axis 1, slices are `1 × C`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: column `j` of the operand's row `idx[e, 0]`, the word read signed and clamped. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.KernelCorr.lean ====
/-
  The outlier correction the kernel's fifth input window stages, read at an entry.

  Before the region the host transposes the dequantised activations to [8192 × 512] (column-major), takes for each
  outlier the row of that array its column word names (a negative word wrapped by 8192 first; a word still out of
  range would be answered by a fill value, which does not arise for words that number actual columns), scales that row
  by the outlier's value, and adds it into the row of a zero [8192 × 512] array that the outlier's row word names (the
  word read as it is; a word that names no row adds nothing). So for row and column words that number actual rows and
  columns, entry (o, t) is the sum, over the outliers of row o, of the activation at (t, col i) times the outlier's value.
-/
import proofs.«405569_j22110491639903_3_alg».proof.Proof.KernelArrays
import proofs.«405569_j22110491639903_3_alg».proof.Proof.LibSegmentSumHost
import proofs.«405569_j22110491639903_3_alg».proof.Proof.LibRowGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelCorr

open Idealize.ShloMosaic Idealize.ShloMosaic.ValueIdx Idealize.ShloMosaic.TcCoe Idealize.SL.Sem
open Cert.KernelIdeal Cert.KernelIdeal.Gen Cert.KernelArrays

variable (m : (ℓ : Loc nD τ sig) → Buf (Elt Ideal) ℓ)

/-! ## Reads of the broadcasts met here -/

/-- A scalar broadcast to any shape reads the scalar everywhere. -/
theorem bcast0_apply {α : Type} {t : Shape} (h : (⟨0, ![]⟩ : Shape).BroadcastsInDim t ![])
    (v : (⟨0, ![]⟩ : Shape).Idx → α) (j : t.Idx) : broadcastInDim t ![] h v j = v ix0 :=
  broadcastInDim_apply ![] h v j ix0 (fun a => a.elim0)

/-- A vector stood up as an [n × 1] column reads, at row i, the vector at i. -/
theorem bcastCol_apply {α : Type} {n : Nat} (h : (⟨1, ![n]⟩ : Shape).BroadcastsInDim ⟨2, ![n, 1]⟩ ![0])
    (v : (⟨1, ![n]⟩ : Shape).Idx → α) (i : Fin n) (z : Fin 1) :
    broadcastInDim ⟨2, ![n, 1]⟩ ![0] h v (ix2 i z) = v (ix1 i) :=
  broadcastInDim_apply ![0] h v (ix2 i z) (ix1 i) (fun a => match a with
    | ⟨0, _⟩ => by
      show i.val = if n = 1 then 0 else i.val
      split
      · have := i.isLt; omega
      · rfl)

/-- A vector laid along the rows of an [n × k] array reads, at (i, j), the vector at i. -/
theorem bcastRows_apply {α : Type} {n k : Nat} (h : (⟨1, ![n]⟩ : Shape).BroadcastsInDim ⟨2, ![n, k]⟩ ![0])
    (v : (⟨1, ![n]⟩ : Shape).Idx → α) (i : Fin n) (j : Fin k) :
    broadcastInDim ⟨2, ![n, k]⟩ ![0] h v (ix2 i j) = v (ix1 i) :=
  broadcastInDim_apply ![0] h v (ix2 i j) (ix1 i) (fun a => match a with
    | ⟨0, _⟩ => by
      show i.val = if n = 1 then 0 else i.val
      split
      · have := i.isLt; omega
      · rfl)

/-- An [n × 1] column repeated along k columns reads, at (i, j), the column at row i. -/
theorem bcastOfCol_apply {α : Type} {n k : Nat} (h : (⟨2, ![n, 1]⟩ : Shape).BroadcastsInDim ⟨2, ![n, k]⟩ ![0, 1])
    (v : (⟨2, ![n, 1]⟩ : Shape).Idx → α) (i : Fin n) (j : Fin k) :
    broadcastInDim ⟨2, ![n, k]⟩ ![0, 1] h v (ix2 i j) = v (ix2 i (0 : Fin 1)) :=
  broadcastInDim_apply ![0, 1] h v (ix2 i j) (ix2 i (0 : Fin 1)) (fun a => match a with
    | ⟨0, _⟩ => by
      show i.val = if n = 1 then 0 else i.val
      split
      · have := i.isLt; omega
      · rfl
    | ⟨1, _⟩ => by
      show (0 : Nat) = if (1 : Nat) = 1 then 0 else j.val
      rw [if_pos rfl])

/-- A conjunction of bits all set, folded from a set bit, is set. -/
theorem reduce_andi_of_all {s t u : Shape} {axes : List (Fin s.rank)} (x : IVec s 1) (init : IVec u 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  induction l with
  | nil => rfl
  | cons a l ih => rw [List.foldl_cons, hx a]; exact ih

/-! ## The take, piece by piece -/

/-- The column words, a negative one wrapped by the table's 8192 rows. -/
def wrapped (w : IVec S8192 32) : IVec S8192 32 :=
  select (cmpi .slt w (broadcastInDim S8192 ![] bcast_S_S8192 (constantI S_ 32 0#32)))
    (addi w (broadcastInDim S8192 ![] bcast_S_S8192 (constantI S_ 32 8192#32))) w

/-- The wrapped words as the gather's [8192 × 1] start indices. -/
def startCol (w : IVec S8192 32) : IVec S8192x1 32 :=
  broadcastInDim S8192x1 ![0] bcast_S8192_S8192x1_0 (wrapped w)

/-- Per word: does it, wrapped, lie in 0 … 8191? -/
def inRange (w : IVec S8192 32) : IVec S8192 1 :=
  Host.reduce IntOp.andi
    (andi (cmpi .sge (startCol w) (broadcastInDim S8192x1 ![] bcast_S_S8192x1 (constantI S_ 32 0#32)))
      (cmpi .sle (startCol w) (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The rows of the table the words name, a word out of range answered by the fill value. -/
def taken (x : FVec Ideal S8192x512 .f32) (w : IVec S8192 32) : FVec Ideal S8192x512 .f32 :=
  select (broadcastInDim S8192x512 ![0] bcast_S8192_S8192x512_0 (inRange w))
    (Host.gather gather_S8192x512_S8192x1_S8192x512_1_0_n_n_0_1_1512 x (startCol w))
    (broadcastInDim S8192x512 ![] bcast_S_S8192x512 (constant S_ .f32 0x7FC00000#32))

/-- The correction array as the host builds it: the scaled taken rows added into a zero array at the row words. -/
theorem corr_term (c : Dev nD) :
    (V m c main_v23 : S8192x512.Idx → EReal)
      = Host.scatterAdd scatter_S8192x512_S8192x1_S8192x512_1_0_0_1
          (broadcastInDim S8192x512 ![] bcast_S_S8192x512 (constant S_ .f32 0x00000000#32))
          (broadcastInDim S8192x1 ![0] bcast_S8192_S8192x1_0 (arg5 m c))
          (mulf (taken (transpose S8192x512 [1, 0] (XD m c) transposes_S512x8192_S8192x512_1_0) (arg6 m c))
            (broadcastInDim S8192x512 ![0, 1] bcast_S8192x1_S8192x512_0_1
              (broadcastInDim S8192x1 ![0] bcast_S8192_S8192x1_0 (arg7 m c)))) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  open Idealize.ShloMosaic.StableHlo in after_results_simp
  rfl

/-! ## The take read at an entry, for words that number actual columns -/

section Take

variable (w : IVec S8192 32) (col : Fin 8192 → Fin 8192)
  (hc : ∀ i : Fin 8192, BitVec.toInt (w (ix1 i)) = ((col i).val : Int))
include hc

/-- A word that numbers a column is not negative, so the wrap leaves it alone. -/
theorem wrapped_apply (i : Fin 8192) : wrapped w (ix1 i) = w (ix1 i) := by
  unfold wrapped
  rw [select_apply]
  have hz : ¬ cmpi .slt w (broadcastInDim S8192 ![] bcast_S_S8192 (constantI S_ 32 0#32)) (ix1 i) = 1#1 := by
    show ¬ IntOp.cmpi .slt (w (ix1 i)) 0#32 = 1#1
    rw [IntOp.cmpi_slt, hc i, show (0#32).toInt = 0 by decide]
    omega
  rw [eq_zero_of_ne_one hz, select_zero]

/-- So the start index of row i is word i. -/
theorem startCol_apply (i : Fin 8192) (z : Fin 1) : startCol w (ix2 i z) = w (ix1 i) := by
  unfold startCol
  exact (bcastCol_apply _ _ i z).trans (wrapped_apply w col hc i)

/-- Every word is in range. -/
theorem inRange_apply (i : Fin 8192) : inRange w (ix1 i) = 1#1 := by
  unfold inRange
  refine reduce_andi_of_all _ _ _ _ _ rfl fun k => ?_
  obtain ⟨a, z, rfl⟩ : ∃ a z, k = ix2 a z := ⟨k 0, k 1, eq_ix2 k⟩
  show IntOp.andi (IntOp.cmpi .sge (startCol w (ix2 a z)) 0#32) (IntOp.cmpi .sle (startCol w (ix2 a z)) 8191#32) = 1#1
  rw [startCol_apply w col hc, IntOp.andi_eq_one, IntOp.cmpi_sge, IntOp.cmpi_sle, hc a,
    show (0#32).toInt = 0 by decide, show (8191#32).toInt = 8191 by decide]
  have := (col a).isLt
  constructor <;> omega

/-- THE TAKE AT (i, t): row (col i) of the table, at column t; no fill. -/
theorem taken_apply (x : FVec Ideal S8192x512 .f32) (i : Fin 8192) (t : Fin 512) :
    taken x w (ix2 i t) = x (ix2 (col i) t) := by
  unfold taken
  rw [select_apply, bcastRows_apply, inRange_apply w col hc, select_one]
  have hk : min (startCol w (ix2 i (0 : Fin 1))).toInt.toNat (8192 - 1) = (col i).val := by
    rw [startCol_apply w col hc, hc, Int.toNat_natCast]
    have := (col i).isLt
    omega
  refine (Cert.Lib.RowGather.gather_rows_apply (N := 8192) (C := 512) (R := 8192) (by decide)
    gather_S8192x512_S8192x1_S8192x512_1_0_n_n_0_1_1512_wf x (startCol w) i t).trans ?_
  exact congrArg (fun r => x (ix2 r t)) (Fin.ext hk)

end Take

/-- Window 5's array, THE OUTLIER CORRECTION, at (o, t): over the outliers of row o, activation (t, col i) times the
    outlier's value. -/
theorem corrArr_apply (c : Dev nD) (row col : Fin 8192 → Fin 8192)
    (hr : ∀ i : Fin 8192, BitVec.toInt (arg5 m c (ix1 i)) = ((row i).val : Int))
    (hc : ∀ i : Fin 8192, BitVec.toInt (arg6 m c (ix1 i)) = ((col i).val : Int))
    (o : Fin 8192) (t : Fin 512) :
    corrArr m c (ix2 o t)
      = ∑ i ∈ Finset.univ.filter (fun i : Fin 8192 => row i = o), XD m c (ix2 t (col i)) * arg7 m c (ix1 i) := by
  show (V m c main_v23 : S8192x512.Idx → EReal) (ix2 o t) = _
  rw [corr_term]
  refine (SegmentSum.scatterAdd_cols_host (P := 8192) (C := 512) (n := 8192) (φ := .f32)
    scatter_S8192x512_S8192x1_S8192x512_1_0_0_1_wf _ _ _ o t).trans ?_
  rw [bcast0_apply, constant_apply, Ideal.ofBits_zero_f32, zero_add]
  refine Finset.sum_congr (Finset.filter_congr fun i _ => ?_) fun i _ => ?_
  · show BitVec.toInt (broadcastInDim S8192x1 ![0] bcast_S8192_S8192x1_0 (arg5 m c) (ix2 i (0 : Fin 1))) = (o.val : Int) ↔ row i = o
    rw [bcastCol_apply, hr i]
    constructor
    · intro h; exact Fin.ext (Int.ofNat_inj.mp h)
    · intro h; rw [h]
  · rw [mulf_apply, taken_apply (arg6 m c) col hc, bcastOfCol_apply, bcastCol_apply]
    rw [transpose_apply [1, 0] (XD m c) transposes_S512x8192_S8192x512_1_0 (ix2 (col i) t) (ix2 t (col i))
      (fun b => match b with | ⟨0, _⟩ => rfl | ⟨1, _⟩ => rfl)]

end Cert.KernelCorr

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.KernelPayload.lean ====
/-
  The kernel body's one stored value at an entry of the output tile.

  At row p (a token) and column q (an output channel of the tile) the body computes: the product of the activation
  row with the tile's integer weight row q, times that channel's scale; plus the product of the projected activation
  row with the low-rank factor's row q; plus the correction tile's entry (q, p), the tile being stored channel-major;
  plus the channel's bias.
-/
import proofs.«405569_j22110491639903_3_alg».proof.Proof.Gen.KernelIdeal.Skeleton
import proofs.«405569_j22110491639903_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayload

open Idealize.ShloMosaic Idealize.ShloMosaic.ValueIdx Cert.KernelIdeal Cert.KernelIdeal.Gen

/-- An integer read as a number does not depend on the float format it is read into. -/
theorem sitofp_bf16_eq_f32 {s : Shape} (x : IVec s 32) (i : s.Idx) :
    sitofp (F := Ideal) .bf16 x i = sitofp (F := Ideal) .f32 x i := rfl

/-- A two-axis array with its axes exchanged reads, at (j, i), the array at (i, j). -/
theorem transpose_swap_apply {α : Type} {a b : Nat} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) (fun c => match c with
    | ⟨0, _⟩ => rfl
    | ⟨1, _⟩ => rfl)

/-- The weight product at (p, q): the activation row p against the transposed operand's column q. -/
theorem matmul_wide_apply (A : FVec Ideal S512x8192 .bf16) (B : FVec Ideal S8192x256 .bf16) (p : Fin 512) (q : Fin 256) :
    matmul (F := Ideal) dot_S512x8192_S8192x256_S512x256_1_0_0_1_n_n none A B
        (constant (F := Ideal) S512x256 .f32 0x00000000#32) (ix2 p q)
      = ∑ k : Fin 8192, A (ix2 p k) * B (ix2 k q) :=
  Cert.Lib.PlainDot.matmul_plain_zero_apply none A B p q

/-- The low-rank product at (p, q). -/
theorem matmul_narrow_apply (A : FVec Ideal S512x64 .bf16) (B : FVec Ideal S64x256 .bf16) (p : Fin 512) (q : Fin 256) :
    matmul (F := Ideal) dot_S512x64_S64x256_S512x256_1_0_0_1_n_n none A B
        (constant (F := Ideal) S512x256 .f32 0x00000000#32) (ix2 p q)
      = ∑ r : Fin 64, A (ix2 p r) * B (ix2 r q) :=
  Cert.Lib.PlainDot.matmul_plain_zero_apply none A B p q

/-- THE BODY'S STORED VALUE AT (p, q). -/
theorem pay_apply (v0 : Vec Ideal S256x8192 .i32) (v2 : Vec Ideal S512x8192 .bf16) (v6 : Vec Ideal S1x256 .f32)
    (v10 : Vec Ideal S512x64 .bf16) (v12 : Vec Ideal S256x64 .bf16) (v16 : Vec Ideal S256x512 .f32) (v19 : Vec Ideal S1x256 .f32)
    (p : Fin 512) (q : Fin 256) :
    k0_pay1 (F := Ideal) v0 v2 v6 v10 v12 v16 v19 (ix2 p q)
      = (((∑ k : Fin 8192, v2 (ix2 p k) * sitofp (F := Ideal) .f32 v0 (ix2 q k)) * v6 (ix2 (0 : Fin 1) q)
          + ∑ r : Fin 64, v10 (ix2 p r) * v12 (ix2 q r))
        + v16 (ix2 q p)) + v19 (ix2 (0 : Fin 1) q) := by
  unfold k0_pay1
  dsimp only
  -- the same-shape casts are identities
  rw [shapeCast_self v2, shapeCast_self v6, shapeCast_self v10, shapeCast_self v12, shapeCast_self v16,
    shapeCast_self v19]
  -- the three sums and the product act entry by entry
  rw [addf_apply, addf_apply, addf_apply, mulf_apply]
  -- the two products, the two broadcast rows and the exchanged correction tile, each at (p, q)
  rw [matmul_wide_apply, matmul_narrow_apply, broadcastTo_1b_ab_apply v6, broadcastTo_1b_ab_apply v19,
    transpose_swap_apply v16]
  -- inside the sums the exchanged operands read their (q, ·) entries
  have e1 : ∀ k : Fin 8192,
      transpose S8192x256 [1, 0] (sitofp (F := Ideal) .bf16 v0) transposes_S256x8192_p1_0_S8192x256 (ix2 k q)
        = sitofp (F := Ideal) .f32 v0 (ix2 q k) :=
    fun k => (transpose_swap_apply (sitofp (F := Ideal) .bf16 v0) _ q k).trans (sitofp_bf16_eq_f32 v0 (ix2 q k))
  have e2 : ∀ r : Fin 64,
      transpose S64x256 [1, 0] v12 transposes_S256x64_p1_0_S64x256 (ix2 r q) = v12 (ix2 q r) :=
    fun r => transpose_swap_apply v12 _ q r
  simp only [e1, e2]

end Cert.KernelPayload

end
-- ==== Proof.KernelBlocks.lean ====
/-
  From the output tiles to the whole output array.

  Grid point n handles output channels 256 n … 256 n + 255: it stages rows 256 n … of the integer weight, of the other
  low-rank factor and of the correction, columns 256 n … of the one-row scale and bias, and the whole activation and
  projection arrays (which do not move), and writes back the [512 × 256] tile at columns 256 n …. The 32 tiles cover the
  [512 × 8192] output, so entry (t, o) of the final array is the body's stored value at (t, o mod 256) of the blocks at
  point o / 256, that is, the one formula below over the whole staged arrays.
-/
import proofs.«405569_j22110491639903_3_alg».proof.Proof.Gen.KernelIdeal.Value
import proofs.«405569_j22110491639903_3_alg».proof.Proof.KernelArrays
import proofs.«405569_j22110491639903_3_alg».proof.Proof.KernelPayload
import Idealize.ShloMosaic.Lib.ValueIdx
import Idealize.ShloMosaic.Lib.Pipeline.Value

noncomputable section

namespace Cert.KernelBlocks

open Idealize.ShloMosaic Idealize.ShloMosaic.ValueIdx Idealize.ShloMosaic.TcCoe Idealize.SL.Sem
open Cert.KernelIdeal Cert.KernelIdeal.Gen Cert.KernelArrays
open Idealize.ShloMosaic.Pipeline (Dat)

variable (m : (ℓ : Loc nD τ sig) → Buf (Elt Ideal) ℓ)

/-- The body's rectangles all start at the origin. -/
theorem origin : (![0, 0] : Fin 2 → Nat) = fun _ => 0 := funext fun a => by fin_cases a <;> rfl

/-- Entry (t, o) of the result, over the whole staged arrays: activations times the integer weight row o, scaled by
    channel o's scale; plus the projected activations times the low-rank factor's row o; plus the correction at (o, t);
    plus channel o's bias. -/
def entry (c : Dev nD) (t : Fin 512) (o : Fin 8192) : EReal :=
  (((∑ k : Fin 8192, xdArr m c (ix2 t k) * sitofp (F := Ideal) .f32 (qwArr m c) (ix2 o k)) * wsRow m c (ix2 (0 : Fin 1) o)
      + ∑ r : Fin 64, xvArr m c (ix2 t r) * suArr m c (ix2 o r))
    + corrArr m c (ix2 o t)) + biasRow m c (ix2 (0 : Fin 1) o)

/-- The whole result array: the entry formula at each index's two coordinates. -/
def result (c : Dev nD) : S512x8192.Idx → EReal := fun j => entry m c (j 0) (j 1)

/-- The tile the body leaves, at row p and column q, over any seven blocks: each block is loaded whole and the one
    store covers the tile, so it is the body's stored value there. -/
theorem tile_apply (x0 : Vec Ideal S256x8192 .i32) (x1 : Vec Ideal S1x256 .f32) (x2 : Vec Ideal S512x8192 .bf16)
    (x3 : Vec Ideal S512x64 .bf16) (x4 : Vec Ideal S256x64 .bf16) (x5 : Vec Ideal S256x512 .f32) (x6 : Vec Ideal S1x256 .f32)
    (p : Fin 512) (q : Fin 256) :
    out0_7 (F := Ideal) x0 x1 x2 x3 x4 x5 x6 (ix2 p q)
      = (((∑ k : Fin 8192, x2 (ix2 p k) * sitofp (F := Ideal) .f32 x0 (ix2 q k)) * x1 (ix2 (0 : Fin 1) q)
          + ∑ r : Fin 64, x3 (ix2 p r) * x4 (ix2 q r))
        + x5 (ix2 q p)) + x6 (ix2 (0 : Fin 1) q) := by
  unfold out0_7
  rw [View.canon_unit_zero origin]
  simp only [View.ld_unit_zero (S := S256x8192) origin, View.ld_unit_zero (S := S512x8192) origin,
    View.ld_unit_zero (S := S1x256) origin, View.ld_unit_zero (S := S512x64) origin,
    View.ld_unit_zero (S := S256x64) origin, View.ld_unit_zero (S := S256x512) origin]
  exact Cert.KernelPayload.pay_apply x0 x2 x1 x3 x4 x5 x6 p q

/-- Where each window's block sits at grid point n, decided over the 32 points: the integer weight, the low-rank factor
    and the correction move down their rows, the scale, the bias and the output along their columns, and the activations
    and their projection stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- The integer weight's block at point n is its rows 256 n … 256 n + 255. -/
theorem qw_block (c : Dev nD) (t : Fin cfg0.N) (x : S256x8192.Idx) (i : S8192x8192.Idx)
    (h0 : (i 0).val = 256 * t.val + (x 0).val) (h1 : (i 1).val = (x 1).val) :
    (iblk m c 0 t : Vec Ideal S256x8192 .i32) x = qwArr m c i := by
  obtain ⟨e0, e1, -⟩ := block_indices t
  show V m c main_arg1 (((cfg0.win 0).blk t).view.emb x) = V m c main_arg1 i
  congr 1
  funext a; apply Fin.ext
  match a with
  | ⟨0, _⟩ => show win0_0.index t (0 : Fin 2) * 256 + 1 * (x 0).val = (i 0).val; omega
  | ⟨1, _⟩ => show win0_0.index t (1 : Fin 2) * 8192 + 1 * (x 1).val = (i 1).val; omega

/-- The scale row's block at point n is its columns 256 n … 256 n + 255. -/
theorem ws_block (c : Dev nD) (t : Fin cfg0.N) (x : S1x256.Idx) (i : S1x8192.Idx)
    (h1 : (i 1).val = 256 * t.val + (x 1).val) :
    (iblk m c 1 t : Vec Ideal S1x256 .f32) x = wsRow m c i := by
  obtain ⟨-, -, e0, e1, -⟩ := block_indices t
  show V m c main_v25 (((cfg0.win 1).blk t).view.emb x) = V m c main_v25 i
  congr 1
  funext a; apply Fin.ext
  match a with
  | ⟨0, _⟩ => show win0_1.index t (0 : Fin 2) * 1 + 1 * (x 0).val = (i 0).val; have := idx2_lt0 x; have := idx2_lt0 i; omega
  | ⟨1, _⟩ => show win0_1.index t (1 : Fin 2) * 256 + 1 * (x 1).val = (i 1).val; omega

/-- The activations' block at every point is the whole array. -/
theorem xd_block (c : Dev nD) (t : Fin cfg0.N) (x : S512x8192.Idx) :
    (iblk m c 2 t : Vec Ideal S512x8192 .bf16) x = xdArr m c x := by
  obtain ⟨-, -, -, -, e0, e1, -⟩ := block_indices t
  show V m c main_v24 (((cfg0.win 2).blk t).view.emb x) = V m c main_v24 x
  congr 1
  funext a; apply Fin.ext
  match a with
  | ⟨0, _⟩ => show win0_2.index t (0 : Fin 2) * 512 + 1 * (x 0).val = (x 0).val; omega
  | ⟨1, _⟩ => show win0_2.index t (1 : Fin 2) * 8192 + 1 * (x 1).val = (x 1).val; omega

/-- The projection's block at every point is the whole array. -/
theorem xv_block (c : Dev nD) (t : Fin cfg0.N) (x : S512x64.Idx) :
    (iblk m c 3 t : Vec Ideal S512x64 .bf16) x = xvArr m c x := by
  obtain ⟨-, -, -, -, -, -, e0, e1, -⟩ := block_indices t
  show V m c main_v14 (((cfg0.win 3).blk t).view.emb x) = V m c main_v14 x
  congr 1
  funext a; apply Fin.ext
  match a with
  | ⟨0, _⟩ => show win0_3.index t (0 : Fin 2) * 512 + 1 * (x 0).val = (x 0).val; omega
  | ⟨1, _⟩ => show win0_3.index t (1 : Fin 2) * 64 + 1 * (x 1).val = (x 1).val; omega

/-- The low-rank factor's block at point n is its rows 256 n … 256 n + 255. -/
theorem su_block (c : Dev nD) (t : Fin cfg0.N) (x : S256x64.Idx) (i : S8192x64.Idx)
    (h0 : (i 0).val = 256 * t.val + (x 0).val) (h1 : (i 1).val = (x 1).val) :
    (iblk m c 4 t : Vec Ideal S256x64 .bf16) x = suArr m c i := by
  obtain ⟨-, -, -, -, -, -, -, -, e0, e1, -⟩ := block_indices t
  show V m c main_v15 (((cfg0.win 4).blk t).view.emb x) = V m c main_v15 i
  congr 1
  funext a; apply Fin.ext
  match a with
  | ⟨0, _⟩ => show win0_4.index t (0 : Fin 2) * 256 + 1 * (x 0).val = (i 0).val; omega
  | ⟨1, _⟩ => show win0_4.index t (1 : Fin 2) * 64 + 1 * (x 1).val = (i 1).val; omega

/-- The correction's block at point n is its rows 256 n … 256 n + 255. -/
theorem corr_block (c : Dev nD) (t : Fin cfg0.N) (x : S256x512.Idx) (i : S8192x512.Idx)
    (h0 : (i 0).val = 256 * t.val + (x 0).val) (h1 : (i 1).val = (x 1).val) :
    (iblk m c 5 t : Vec Ideal S256x512 .f32) x = corrArr m c i := by
  obtain ⟨-, -, -, -, -, -, -, -, -, -, e0, e1, -⟩ := block_indices t
  show V m c main_v23 (((cfg0.win 5).blk t).view.emb x) = V m c main_v23 i
  congr 1
  funext a; apply Fin.ext
  match a with
  | ⟨0, _⟩ => show win0_5.index t (0 : Fin 2) * 256 + 1 * (x 0).val = (i 0).val; omega
  | ⟨1, _⟩ => show win0_5.index t (1 : Fin 2) * 512 + 1 * (x 1).val = (i 1).val; omega

/-- The bias row's block at point n is its columns 256 n … 256 n + 255. -/
theorem bias_block (c : Dev nD) (t : Fin cfg0.N) (x : S1x256.Idx) (i : S1x8192.Idx)
    (h1 : (i 1).val = 256 * t.val + (x 1).val) :
    (iblk m c 6 t : Vec Ideal S1x256 .f32) x = biasRow m c i := by
  obtain ⟨-, -, -, -, -, -, -, -, -, -, -, -, e0, e1, -⟩ := block_indices t
  show V m c main_v26 (((cfg0.win 6).blk t).view.emb x) = V m c main_v26 i
  congr 1
  funext a; apply Fin.ext
  match a with
  | ⟨0, _⟩ => show win0_6.index t (0 : Fin 2) * 1 + 1 * (x 0).val = (i 0).val; have := idx2_lt0 x; have := idx2_lt0 i; omega
  | ⟨1, _⟩ => show win0_6.index t (1 : Fin 2) * 256 + 1 * (x 1).val = (i 1).val; omega

/-- The tile point n writes back, at row p and column q, is the result's entry (p, 256 n + q). -/
theorem tile_entry (c : Dev nD) (t : Fin cfg0.N) (p : Fin 512) (q : Fin 256) (o : Fin 8192) (ho : o.val = 256 * t.val + q.val) :
    out0_7 (F := Ideal) (iblk m c 0 t) (iblk m c 1 t) (iblk m c 2 t) (iblk m c 3 t) (iblk m c 4 t) (iblk m c 5 t) (iblk m c 6 t) (ix2 p q)
      = entry m c p o := by
  refine (tile_apply _ _ _ _ _ _ _ p q).trans ?_
  unfold entry
  refine congrArg₂ (· + ·) (congrArg₂ (· + ·) (congrArg₂ (· + ·) (congrArg₂ (· * ·)
    (Finset.sum_congr rfl fun k _ => congrArg₂ (· * ·) ?_ ?_) ?_) (Finset.sum_congr rfl fun r _ => congrArg₂ (· * ·) ?_ ?_)) ?_) ?_
  · exact xd_block m c t (ix2 p k)
  · rw [sitofp_apply, sitofp_apply]
    exact congrArg _ (qw_block m c t (ix2 q k) (ix2 o k) ho rfl)
  · exact ws_block m c t (ix2 (0 : Fin 1) q) (ix2 (0 : Fin 1) o) ho
  · exact xv_block m c t (ix2 p r)
  · exact su_block m c t (ix2 q r) (ix2 o r) ho rfl
  · exact corr_block m c t (ix2 q p) (ix2 o p) ho rfl
  · exact bias_block m c t (ix2 (0 : Fin 1) q) (ix2 (0 : Fin 1) o) ho

/-- The same at any index y of the tile and any index i of the array with i = (y₀, 256 n + y₁). -/
theorem tile_result (c : Dev nD) (t : Fin cfg0.N) (y : S512x256.Idx) (i : S512x8192.Idx)
    (h0 : (i 0).val = (y 0).val) (h1 : (i 1).val = 256 * t.val + (y 1).val) :
    out0_7 (F := Ideal) (iblk m c 0 t) (iblk m c 1 t) (iblk m c 2 t) (iblk m c 3 t) (iblk m c 4 t) (iblk m c 5 t) (iblk m c 6 t) y
      = result m c i := by
  obtain ⟨p, q, rfl⟩ : ∃ (p : Fin 512) (q : Fin 256), y = ix2 p q := ⟨y 0, y 1, eq_ix2 y⟩
  obtain ⟨p', o, rfl⟩ : ∃ (p' : Fin 512) (o : Fin 8192), i = ix2 p' o := ⟨i 0, i 1, eq_ix2 i⟩
  obtain rfl : p' = p := Fin.ext h0
  exact tile_entry m c t p' q o h1

/-- WHAT POINT n WRITES BACK is block n of the result. -/
theorem flushed_eq (c : Dev nD) (t : Fin cfg0.N) :
    (dats m 0 c).flushed 7 t = ((cfg0.win 7).blk t).view.read (Elt Ideal) (result m c) := by
  rw [Value.flushed7]
  obtain ⟨-, -, -, -, -, -, -, -, -, -, -, -, -, -, e0, e1⟩ := block_indices t
  funext y
  show out0_7 (F := Ideal) (iblk m c 0 t) (iblk m c 1 t) (iblk m c 2 t) (iblk m c 3 t) (iblk m c 4 t) (iblk m c 5 t) (iblk m c 6 t)
      ((cfg0.win 7).xinj (grid0.coords t) y) = result m c (((cfg0.win 7).blk t).view.emb y)
  refine tile_result m c t _ _ ?_ ?_
  · show win0_7.index t (0 : Fin 2) * 512 + 1 * (y 0).val = (y 0).val; omega
  · show win0_7.index t (1 : Fin 2) * 256 + 1 * (y 1).val = 256 * t.val + (y 1).val; omega

/-- An index of the array is in point n's block iff each coordinate is in the block's range on its axis. -/
theorem mem_tile (t : Fin cfg0.N) (i : S512x8192.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v27).slice (win0_7.rect t)).set ↔ _
  rw [View.set_slice_whole, Rect.mem_set_unit]
  exact Iff.rfl

/-- The tiles cover the array: column o is in the tile of point o / 256. -/
theorem covered (i : S512x8192.Idx) :
    ∃ t : Fin cfg0.N, (cfg0.win 7).flush t = true ∧ i ∈ ((cfg0.win 7).blk t).view.set := by
  have hN : cfg0.N = 32 := N_0
  have hi0 : (i 0).val < 512 := idx2_lt0 i
  have hi1 : (i 1).val < 8192 := idx2_lt1 i
  refine ⟨⟨(i 1).val / 256, by rw [hN]; omega⟩, flush0_7 _, ?_⟩
  obtain ⟨-, -, -, -, -, -, -, -, -, -, -, -, -, -, e0, e1⟩ := block_indices ⟨(i 1).val / 256, by rw [hN]; omega⟩
  rw [mem_tile]
  intro a
  match a with
  | ⟨0, _⟩ => show win0_7.index _ (0 : Fin 2) * 512 ≤ (i 0).val ∧ (i 0).val < win0_7.index _ (0 : Fin 2) * 512 + 512; rw [e0]; omega
  | ⟨1, _⟩ => show win0_7.index _ (1 : Fin 2) * 256 ≤ (i 1).val ∧ (i 1).val < win0_7.index _ (1 : Fin 2) * 256 + 256; rw [e1]; show (i 1).val / 256 * 256 ≤ (i 1).val ∧ (i 1).val < (i 1).val / 256 * 256 + 256; omega

/-- THE OUTPUT ARRAY AFTER THE RUN is the result. -/
theorem final (c : Dev nD) : outArr m c = result m c :=
  (dats m 0 c).arrAt_eq_of_cover 7 (result m c) (fun t _ => flushed_eq m c t) covered

/-- THE OUTPUT ARRAY AFTER THE RUN AT (t, o), over the arrays the region found. -/
theorem final_apply (c : Dev nD) (t : Fin 512) (o : Fin 8192) :
    outArr m c (ix2 t o)
      = (((∑ k : Fin 8192, xdArr m c (ix2 t k) * sitofp (F := Ideal) .f32 (qwArr m c) (ix2 o k)) * wsRow m c (ix2 (0 : Fin 1) o)
          + ∑ r : Fin 64, xvArr m c (ix2 t r) * suArr m c (ix2 o r))
        + corrArr m c (ix2 o t)) + biasRow m c (ix2 (0 : Fin 1) o) := by
  rw [final]
  rfl

end Cert.KernelBlocks

end
-- ==== Proof.KernelEntry.lean ====
/-
  The kernel's output at one entry, in the specification's terms.

  The output array after the run, read at (t, o), is one formula over the arrays the input windows stage; each of
  those arrays is known from the host prelude: the dequantised activations, the integer weight itself, the weight
  scale and the bias as rows, the scaled projection, the other low-rank factor, and the outlier correction as a sum
  over the outliers of row o. Substituting gives the kernel side of the law.
-/
import proofs.«405569_j22110491639903_3_alg».proof.Proof.KernelHost
import proofs.«405569_j22110491639903_3_alg».proof.Proof.KernelCorr
import proofs.«405569_j22110491639903_3_alg».proof.Proof.KernelBlocks
import proofs.«405569_j22110491639903_3_alg».proof.Proof.Spec

noncomputable section

namespace Cert.KernelEntry

open Idealize.ShloMosaic Idealize.ShloMosaic.ValueIdx Idealize.ShloMosaic.TcCoe Idealize.SL.Sem
open Cert.KernelIdeal Cert.KernelIdeal.Gen Cert.KernelArrays

variable (m : (ℓ : Loc nD τ sig) → Buf (Elt Ideal) ℓ)

/-- THE KERNEL AT ENTRY (t, o), for row and column words that number actual rows and columns. -/
theorem kernel_entry (c : Dev nD) (row col : Fin 8192 → Fin 8192)
    (hr : ∀ i : Fin 8192, BitVec.toInt (arg5 m c (ix1 i)) = ((row i).val : Int))
    (hc : ∀ i : Fin 8192, BitVec.toInt (arg6 m c (ix1 i)) = ((col i).val : Int))
    (t : Fin 512) (o : Fin 8192) :
    outArr m c (ix2 t o)
      = Cert.Spec.kernelEntry (fun t k => XD m c (ix2 t k)) (fun o k => sitofp (F := Ideal) .f32 (arg1 m c) (ix2 o k))
          (fun o => arg2 m c (ix1 o)) (fun t r => XV m c (ix2 t r)) (fun o r => arg8 m c (ix2 o r))
          (fun i => arg7 m c (ix1 i)) (fun o => arg11 m c (ix1 o)) row col t o := by
  rw [Cert.KernelBlocks.final_apply, Cert.KernelHost.xdArr_eq, Cert.KernelHost.qwArr_eq, Cert.KernelHost.wsRow_apply,
    Cert.KernelHost.xvArr_eq, Cert.KernelHost.suArr_eq, Cert.KernelCorr.corrArr_apply m c row col hr hc,
    Cert.KernelHost.biasRow_apply]
  rfl

end Cert.KernelEntry

end
-- ==== Proof.lean ====
/-
  The certificate: a quantised linear layer with outlier, low-rank and smoothing corrections, against its reference.

  Both programs first dequantise the activations the same way (divide by the smoothing scales and by the activation
  scale, round, clip to [-128, 127], multiply the scale back) and project them on a rank-64 factor. The kernel then
  multiplies the activations by the INTEGER weight tile by tile, scales each output channel afterwards, and adds three
  terms: the low-rank product, an outlier correction the host built by a take and a segment sum, and the bias. The
  reference folds the channel scale and the outliers into one dense weight first, multiplies once, and adds the
  low-rank product and the bias.

  Over the extended reals the two agree entry by entry when the weight scale, the activation scale and the outlier
  values are finite (distributivity needs real numbers; the clip makes the dequantised activations real whatever the
  other float inputs are) and when every outlier's row and column word numbers an actual row and column of the weight
  (the reference wraps a negative word where the kernel's segment sum drops it, and the kernel's take answers an
  out-of-range column by a fill value): that is the precondition. The law itself is in Spec.lean; the kernel's value
  at an entry comes from the generated frame run read tile by tile and from the host prelude; the reference's from
  its generated run read operation by operation.
-/
import proofs.«405569_j22110491639903_3_alg».proof.Defs
import proofs.«405569_j22110491639903_3_alg».proof.Proof.Gen.Kernel
import proofs.«405569_j22110491639903_3_alg».proof.Proof.Gen.Kernel.Skeleton
import proofs.«405569_j22110491639903_3_alg».proof.Proof.Gen.Kernel.Launch
import proofs.«405569_j22110491639903_3_alg».proof.Proof.Gen.Kernel.Points
import proofs.«405569_j22110491639903_3_alg».proof.Proof.Gen.Kernel.Frame
import proofs.«405569_j22110491639903_3_alg».proof.Proof.Gen.KernelIdeal
import proofs.«405569_j22110491639903_3_alg».proof.Proof.Gen.KernelIdeal.Skeleton
import proofs.«405569_j22110491639903_3_alg».proof.Proof.Gen.KernelIdeal.Launch
import proofs.«405569_j22110491639903_3_alg».proof.Proof.Gen.KernelIdeal.Points
import proofs.«405569_j22110491639903_3_alg».proof.Proof.Gen.KernelIdeal.Frame
import proofs.«405569_j22110491639903_3_alg».proof.Proof.Gen.ReferenceIdeal
import proofs.«405569_j22110491639903_3_alg».proof.Proof.Gen.Pre_finite_inputs
import proofs.«405569_j22110491639903_3_alg».proof.Proof.Gen.KernelIdeal.Value
import proofs.«405569_j22110491639903_3_alg».proof.Proof.Gen.ReferenceIdeal.Run
import proofs.«405569_j22110491639903_3_alg».proof.Proof.Gen.ReferenceIdeal.Read
import proofs.«405569_j22110491639903_3_alg».proof.Proof.Spec
import proofs.«405569_j22110491639903_3_alg».proof.Proof.PreFacts
import proofs.«405569_j22110491639903_3_alg».proof.Proof.RefEntry
import proofs.«405569_j22110491639903_3_alg».proof.Proof.KernelEntry
import Idealize.ShloMosaic.Adequacy
import Idealize.ShloMosaic.Init

noncomputable section

namespace Cert.Proof

open Idealize.ShloMosaic Idealize.ShloMosaic.ValueIdx Idealize.ShloMosaic.TcCoe Idealize.SL.Sem

/-- The word-level kernel runs and keeps its arguments: the generated frame. -/
theorem frame_k : Cert.frame_Kernel := fun m ρ _ => Cert.Kernel.Gen.frame m ρ

/-- So does the idealised kernel. -/
theorem frame_ki : Cert.frame_KernelIdeal := fun m ρ _ => Cert.KernelIdeal.Gen.frame m ρ

/-- The reference is a host program: its generated run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- A word whose signed reading lies in [0, 8192) numbers a row (or a column). -/
theorem word_number (w : BitVec 32) (h : 0 ≤ w.toInt ∧ w.toInt < 8192) :
    ∃ n : Fin 8192, w.toInt = (n.val : Int) :=
  ⟨⟨w.toInt.toNat, by omega⟩, by simp only []; omega⟩

/-- At the exact instance the two programs, run from memories agreeing on the arguments, end with equal results. -/
theorem algebraic : Cert.algebraic_KernelIdeal_ReferenceIdeal := by
  intro m ρ m' ρ' hpre hagree
  refine ⟨fun c => Cert.KernelArrays.outArr m c, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  -- the reference's result term is the last stage of its run, at the kernel's argument arrays
  rw [Cert.ReferenceIdeal.Read.val_main_v39_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2]
  -- what the precondition gives
  obtain ⟨hws, ha, hv, hrows, hcols⟩ := Cert.PreFacts.facts_of_pre _ _ _ _ _ _ _ _ _ _ _ _ (hpre c)
  choose row hrow using fun i : Fin 8192 => word_number _ (hrows i)
  choose col hcol using fun i : Fin 8192 => word_number _ (hcols i)
  funext j
  obtain ⟨t, o, rfl⟩ : ∃ (t : Fin 512) (o : Fin 8192), j = ix2 t o := ⟨j 0, j 1, eq_ix2 j⟩
  refine (Cert.RefEntry.ref_entry _ _ _ _ _ _ _ _ _ _ _ _ row col hrow hcol t o).trans ?_
  refine Eq.trans ?_ (Cert.KernelEntry.kernel_entry m c row col hrow hcol t o).symm
  exact (Cert.Spec.kernelEntry_eq_refEntry _ _ _ _ _ _ _ row col
    (fun t k => Cert.RefEntry.xdq_real _ _ _ ha _) (fun o k => Cert.RefEntry.qf_real _ _) hws hv t o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
